-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S_ : Shape := ⟨0, ![]⟩
abbrev S16384 : Shape := ⟨1, ![16384]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : FVec F S16384x16384 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S16384 .f32 := (fun x v => Host.reduceAdd x v reducesTo_S16384x16384_S16384_d1 h_S_) main_arg1 main_cst_6
  let main_cst_7 : FVec F S_ .f32 := constant S_ .f32 0x3F800000#32
  let main_v20 : FVec F S16384 .f32 := broadcastInDim S16384 ![] bcast_S_S16384 main_cst_7
  let main_v21 : FVec F S16384 .f32 := addf main_v19 main_v20
  let main_cst_8 : FVec F S_ .f32 := constant S_ .f32 0x00000000#32
  let main_v22 : FVec F S16384 .f32 := broadcastInDim S16384 ![] bcast_S_S16384 main_cst_8
  let main_v23 : IVec S16384 1 := cmpf .ogt main_v21 main_v22
  let main_c_9 : IVec S_ 1 := constantI S_ 1 1#1
  let main_v24 : IVec S_ 1 := (fun x v => Host.reduce IntOp.andi x v reducesTo_S16384_S_d0 h_S_) main_v23 main_c_9
  let main_v25 : IVec S_ 1 := andi main_v18 main_v24
  main_v25

def fn {F : FTy → Type} [FloatOps F] (main_arg0 : FVec F S16384x512 .f32) (main_arg1 : FVec F S16384x16384 .f32) (main_arg2 : FVec F S256x512 .f32) (main_arg3 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S16384 : Shape := ⟨1, ![16384]⟩
abbrev S256x16384 : Shape := ⟨2, ![256, 16384]⟩
abbrev S512x256 : Shape := ⟨2, ![512, 256]⟩
abbrev S16384x256 : Shape := ⟨2, ![16384, 256]⟩
abbrev S1x256 : Shape := ⟨2, ![1, 256]⟩
abbrev S16384x1 : Shape := ⟨2, ![16384, 1]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 22
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S256x512, .f32⟩
  | .hbm, ⟨3, _⟩ => ⟨S256, .f32⟩
  | .hbm, ⟨4, _⟩ => ⟨S16384, .f32⟩
  | .hbm, ⟨5, _⟩ => ⟨S512x256, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x1, .f32⟩
  | .hbm, ⟨15, _⟩ => ⟨S16384x256, .f32⟩
  | .hbm, ⟨16, _⟩ => ⟨S16384x256, .f32⟩
  | .hbm, ⟨17, _⟩ => ⟨S16384, .f32⟩
  | .hbm, ⟨18, _⟩ => ⟨S16384x1, .f32⟩
  | .hbm, ⟨19, _⟩ => ⟨S16384x256, .f32⟩
  | .hbm, ⟨20, _⟩ => ⟨S16384x256, .f32⟩
  | .hbm, ⟨21, _⟩ => ⟨S16384x256, .f32⟩
  | .local _ .vmem, ⟨0, _⟩ => ⟨S256x16384, .f32⟩
  | .local _ .vmem, ⟨1, _⟩ => ⟨S256x16384, .f32⟩
  | .local _ .vmem, ⟨2, _⟩ => ⟨S256, .f32⟩
  | .local _ .vmem, ⟨3, _⟩ => ⟨S256, .f32⟩
  | .local _ .vmem, ⟨4, _⟩ => ⟨S2048x1024, .f32⟩
  | .local _ .vmem, ⟨5, _⟩ => ⟨S2048x1024, .f32⟩
  | .local _ .vmem, ⟨6, _⟩ => ⟨S1024x256, .f32⟩
  | .local _ .vmem, ⟨7, _⟩ => ⟨S1024x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  inb_S256_S256_0 : ∀ a, (![0] : Fin 1 → Nat) a + S256.size a ≤ S256.size a
  h_S256 : 0 < S256.numel
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S16384x512_S512x256_S16384x256_1_0_0_1_n_n_wf : DotDims.WF S16384x512 S512x256 S16384x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S16384.size a
  hwx0_1 : ∀ i : grid0.Coords, EltTy.bits .f32 = 32 ∨ (Rect.block (s := S16384) S256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S16384x256.size a
  hwx1_1 : ∀ i : grid1.Coords, EltTy.bits .f32 = 32 ∨ (Rect.block (s := S16384x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1x16384 : Shape := ⟨2, ![1, 16384]⟩
abbrev S512x256 : Shape := ⟨2, ![512, 256]⟩
abbrev S16384x256 : Shape := ⟨2, ![16384, 256]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S256x512, .f32⟩
  | .hbm, ⟨3, _⟩ => ⟨S256, .f32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S_, .f32⟩
  | .hbm, ⟨24, _⟩ => ⟨S16384, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x16384, .f32⟩
  | .hbm, ⟨31, _⟩ => ⟨S16384x16384, .f32⟩
  | .hbm, ⟨32, _⟩ => ⟨S1x16384, .f32⟩
  | .hbm, ⟨33, _⟩ => ⟨S16384x16384, .f32⟩
  | .hbm, ⟨34, _⟩ => ⟨S16384x16384, .f32⟩
  | .hbm, ⟨35, _⟩ => ⟨S512x256, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16384_S16384_d1 : S16384x16384.ReducesTo [1] S16384
  h_S_ : 0 < S_.numel
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  scatter_S16384x16384_S16384x2_S16384_n_01_01_1_wf : ScatterDims.WF S16384x16384 S16384x2 S16384 [] [0, 1] [0, 1] 1
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []

variable [Facts₀]

def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.BitsSide.DegDefs.lean ====
/-
  The degree pass (the program's first kernel region): what it is handed and what it leaves, as data.

  The region walks the adjacency matrix in 64 blocks of 256 whole rows.  At point `t` the body is handed rows
  `256 t … 256 t + 255` and leaves, in the output window's buffer, one number per row: the inverse root of the
  row's sum plus one.  Nothing is carried from one point to the next.
-/
import proofs.«162367_j22325240004644_1_alg».proof.Proof.Gen.Kernel.Launch
import proofs.«162367_j22325240004644_1_alg».proof.Proof.Gen.Kernel.Skeleton
import proofs.«162367_j22325240004644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 adjacency rows of point `t`, at their literal type. -/
abbrev rows0 (c : Dev nD) (t : Fin cfg0.N) : Vec F S256x16384 .f32 := iblk0 V c 0 t

/-- What the body leaves in the output window's buffer, from the rows it loaded. -/
def out0_1 (x0 : Vec F S256x16384 .f32) : Vec F S256 .f32 := k0_pay1 x0

/-- The proof data of the degree pass on core `c`: the arrays as the region finds them; after the body the input
    window's buffer still at its block and the output's at `out0_1` of it; the invariant says nothing beyond the
    scoped buffers and the generator register being there; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (rows0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (rows0 V c t) := by dsimp only [dat0]

end Cert.Kernel.Hand

end
-- ==== Proof.BitsSide.DegBody.lean ====
/-
  The degree pass's body, run on what the pipeline hands it at any point.
-/
import proofs.«162367_j22325240004644_1_alg».proof.Proof.BitsSide.DegDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- The rows of point `s` are what the proof data calls the input window's block there. -/
theorem blockOf_rows (c : Dev nD) (s : Fin cfg0.N) : (dat0 V c).blockOf 0 s = iblk0 V c 0 s := by
  unfold Dat.blockOf iblk0; rw [A_eq0]

/-- The input window is an input, never idle and never cut, and the body leaves its block where it was; so at
    every point, fetched there or not, its current staging buffer holds the 256 rows of that point. -/
theorem rows_before (c : Dev nD) (t : Fin cfg0.N) (d) : (dat0 V c).before 0 t d = rows0 V c t := by
  refine ((dat0 V c).before_in_eq_fetched 0 rfl (fun _ => rfl) (fun _ _ _ => rfl) (fun s => ?_) t d).trans ?_
  · rw [after0_0, blockOf_rows]
  · unfold Dat.fetched; rw [blockOf_rows]; rfl

/-- Both of the body's rectangles start at the origin of their buffer. -/
theorem origin1 : (![0] : Fin 1 → Nat) = fun _ => 0 := funext fun a => by fin_cases a; rfl
theorem origin2 : (![0, 0] : Fin 2 → Nat) = fun _ => 0 := funext fun a => by fin_cases a <;> rfl

/-- The store's rectangle is the whole output buffer, so it holds every index of it. -/
theorem store_covers (p0 : Vec F S256 .f32) (y : S256.Idx) :
    ∃ pc ∈ ([⟨Rect.unit (s := S256) ![0] S256.size inb_S256_S256_0, p0⟩] : List (View.Piece (Elt F) S256 .f32)),
      y ∈ pc.1.set :=
  ⟨_, List.mem_singleton_self _, View.mem_set_unit_zero (S := S256) origin1 inb_S256_S256_0 y⟩

set_option maxHeartbeats 1000000 in
/-- The kernel function on two whole memrefs, the first holding `x0` and the second anything: it reads the first,
    reads and discards the second, and overwrites the whole of the second with the payload of `x0`.  The one
    store's rectangle is the whole buffer, so what the buffer reads afterwards is that payload; the one load's
    rectangle is the whole input buffer, so the payload's argument is `x0` itself. -/
theorem degree_kernel_runs (c : Dev nD) (E : Set ℕ) (i : grid0.Coords)
    (arg1 : Memref sig .tc .vmem S256x16384 .f32) (harg1 : arg1.IsWhole)
    (arg2 : Memref sig .tc .vmem S256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr
    · ipureintro; rfl
    · iexact H0
  · iexists _; isplitr
    swap; · iexact H1
    ipureintro
    refine (View.read_writes_eq_canon _ _ _ (store_covers _)).trans ?_
    rw [View.canon_unit_zero origin1, View.readAt_eq_ld, View.ld_unit_zero (S := S256x16384) origin2]
    rfl

/-- What the body is called with at point `t`, the two windows spelt out, -/
def degPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def degPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at point `t`: the input window's buffer holds the point's rows, so the kernel function's triple
    applies to the two current staging memrefs; the invariant and the core's dues are the same at `t` and
    after it, and are carried around the call unread. -/
theorem degree_body_runs (c : Dev nD) (t : Fin cfg0.N) :
    degPre V c t ⊢ wp frame (wpE (defs₀ (F := F)) Variants.none c none) Set.univ (bodyAt0 t) (fun _ => degPost V c t) := by
  unfold degPre degPost bodyAt0
  simp only [rows_before]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (degree_kernel_runs c Set.univ _ _ _ _ _ (rows0 V c t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- At every point the body, handed its 256 rows, leaves them in place and leaves `out0_1` of them in the output
    window's buffer; the invariant and the core's dues pass through untouched. -/
theorem body_obligation0 (c : Dev nD) : BodyObligation (dat0 (F := F) V c) (defs₀ (F := F)) Variants.none () Set.univ := fun t => by
  rw [bigSep_W0, bigSep_W0]
  exact degree_body_runs V c t

end Cert.Kernel.Hand

end
-- ==== Proof.BitsSide.AggDefs.lean ====
/-
  The aggregation pass (the program's second kernel region): what it is handed and what it leaves, as data.

  The grid is 8 row blocks by 16 column blocks, walked row block by row block, the column block `k = t mod 16`
  moving fastest.  At point `t` the body is handed a 2048 × 1024 block of the adjacency matrix and the matching
  1024 × 256 block of the scaled features, and keeps a 2048 × 256 accumulator in a scratch buffer of its own:
  reset to zero when `k = 0`, then increased by the product of the two blocks at every point; when `k = 15` the
  accumulator is copied to the output window's buffer, which is written back there and nowhere else.
-/
import proofs.«162367_j22325240004644_1_alg».proof.Proof.Gen.Kernel.Launch
import proofs.«162367_j22325240004644_1_alg».proof.Proof.Gen.Kernel.Skeleton
import proofs.«162367_j22325240004644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block and the feature block of point `t`, at their literal types. -/
abbrev lblk1 (c : Dev nD) (t : Fin cfg1.N) : Vec F S2048x1024 .f32 := iblk1 V c 0 t
abbrev rblk1 (c : Dev nD) (t : Fin cfg1.N) : Vec F S1024x256 .f32 := iblk1 V c 1 t

/-- The accumulator after the body at position `n`: started from zero where `n mod 16 = 0`, otherwise from what
    the point before left, and increased by the product of the point's two blocks. -/
def accAt (c : Dev nD) : (n : ℕ) → n < cfg1.N → Vec F S2048x256 .f32
  | 0, hn => k1_pay2 (lblk1 V c ⟨0, hn⟩) (rblk1 V c ⟨0, hn⟩) (k1_pay1 (F := F))
  | n + 1, hn =>
    if (n + 1) % 16 = 0 then k1_pay2 (lblk1 V c ⟨n + 1, hn⟩) (rblk1 V c ⟨n + 1, hn⟩) (k1_pay1 (F := F))
    else k1_pay2 (lblk1 V c ⟨n + 1, hn⟩) (rblk1 V c ⟨n + 1, hn⟩) (accAt c n (Nat.lt_of_succ_lt hn))

/-- At a point that starts a row block the accumulator restarts from zero. -/
theorem accAt_reset (c : Dev nD) (t : Fin cfg1.N) (h : t.val % 16 = 0) :
    accAt V c t.val t.isLt = k1_pay2 (lblk1 V c t) (rblk1 V c t) (k1_pay1 (F := F)) := by
  obtain ⟨n, hn⟩ := t
  cases n with
  | zero => rfl
  | succ n => exact if_pos h

/-- At any other point it continues from what the point before left. -/
theorem accAt_step (c : Dev nD) (t : Fin cfg1.N) (h : ¬t.val % 16 = 0) :
    accAt V c t.val t.isLt
      = k1_pay2 (lblk1 V c t) (rblk1 V c t) (accAt V c (t.val - 1) (Nat.lt_of_le_of_lt (Nat.sub_le _ _) t.isLt)) := by
  obtain ⟨n, hn⟩ := t
  cases n with
  | zero => exact absurd (Nat.zero_mod _) h
  | succ n => exact if_neg h

/-- The scratch accumulator, as the whole buffer it is. -/
abbrev scM1 : Memref sig .tc .vmem S2048x256 .f32 := Memref.whole cc1_scratch0

/-- The scoped buffers of the core that this region neither stages through nor accumulates in (the degree pass's
    staging buffers), each whole at some contents. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position `n`: before the first point the scoped buffers at anything and the
    generator register at some state; afterwards the same with the accumulator at what the point before left. -/
def PhiS (c : Dev nD) : (n : ℕ) → n ≤ cfg1.N → sProp 𝕄
  | 0, _ => Pipeline.ΦA spec1 c
  | n + 1, hn => iprop(idleScoped (F := F) c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleScoped (F := F) c ∗ owns (c : Thread nD τ) scM1 fullShare (accAt V c n hn) ∗ (∃ r, prngReg c r)) := rfl

theorem PhiS_pos (c : Dev nD) (n : ℕ) (h : n ≤ cfg1.N) (hz : n ≠ 0) :
    PhiS V c n h = iprop(idleScoped (F := F) c ∗ owns (c : Thread nD τ) scM1 fullShare (accAt V c (n - 1) (by omega)) ∗ (∃ r, prngReg c r)) := by
  cases n with
  | zero => exact absurd rfl hz
  | succ n => rfl

/-- The proof data of the aggregation pass on core `c`: the arrays as the region finds them; after the body the
    input windows' buffers still at their blocks and the output's at the accumulator (only read where `k = 15`, the
    points that write it back); the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.Kernel.Hand

end
-- ==== Proof.BitsSide.AggBody.lean ====
/-
  The aggregation pass's body, run on what the pipeline hands it at any point, in each of its three cases
  (a row block's first column block, a middle one, its last).
-/
import proofs.«162367_j22325240004644_1_alg».proof.Proof.BitsSide.AggDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-! ## Where the body's two conditionals hold, and where the output window is idle -/

/-- The first conditional's test, from the grid coordinates: the column block is the first. -/
private abbrev resetAt (i : grid1.Coords) : Prop :=
  (Scalar.cmpi .ne (Scalar.extui (Scalar.cmpi .eq (BitVec.ofNat 32 (i 1).val) 0#32)) 0#32) = 1#1
/-- It holds exactly where the point's index is a multiple of 16 (checked over the 128 points). -/
private theorem resetAt_iff : ∀ t : Fin cfg1.N, resetAt (grid1.coords t) ↔ t.val % 16 = 0 :=
  (by decide +kernel : ∀ t : Fin grid1.N, resetAt (grid1.coords t) ↔ t.val % 16 = 0)

/-- The second conditional's test: the column block is the last. -/
private abbrev emitAt (i : grid1.Coords) : Prop := k1_cond2 i = 1#1
/-- It holds exactly where the point's index is 15 modulo 16. -/
private theorem emitAt_iff : ∀ t : Fin cfg1.N, emitAt (grid1.coords t) ↔ t.val % 16 = 15 :=
  (by decide +kernel : ∀ t : Fin grid1.N, emitAt (grid1.coords t) ↔ t.val % 16 = 15)

/-- The two input windows are never idle. -/
private theorem live0 : ∀ t : Fin cfg1.N, cfg1.idle 0 (grid1.coords t) = false := by decide +kernel
private theorem live1 : ∀ t : Fin cfg1.N, cfg1.idle 1 (grid1.coords t) = false := by decide +kernel
/-- The output window is idle away from a row block's last point, live at it, -/
private theorem idle2 : ∀ t : Fin cfg1.N, ¬t.val % 16 = 15 → cfg1.idle 2 (grid1.coords t) = true :=
  (by decide +kernel : ∀ t : Fin grid1.N, ¬t.val % 16 = 15 → idle1 2 (grid1.coords t) = true)
private theorem live2 : ∀ t : Fin cfg1.N, t.val % 16 = 15 → cfg1.idle 2 (grid1.coords t) = false :=
  (by decide +kernel : ∀ t : Fin grid1.N, t.val % 16 = 15 → idle1 2 (grid1.coords t) = false)
/-- and not written back away from it. -/
private theorem noFlush2 (t : Fin cfg1.N) (h : ¬t.val % 16 = 15) : (cfg1.win 2).flush t = false := by
  cases hf : (cfg1.win 2).flush t with
  | false => rfl
  | true => exact absurd ((flush1_2 t).mp hf) h

/-- Separating conjunction regrouped: the accumulator's buffer taken out of the list of scoped buffers. -/
private theorem regroup (A B C D S G : sProp 𝕄) :
    (iprop((A ∗ B ∗ C ∗ D ∗ S) ∗ G) : sProp 𝕄) = iprop((A ∗ B ∗ C ∗ D) ∗ S ∗ G) := by
  have h₁ : (iprop((A ∗ B ∗ C ∗ D ∗ S) ∗ G) : sProp 𝕄) ⊢ iprop((A ∗ B ∗ C ∗ D) ∗ S ∗ G) := by
    iintro ⟨⟨HA, HB, HC, HD, HS⟩, HG⟩
    isplitl [HA HB HC HD]
    · isplitl [HA]; · iexact HA
      isplitl [HB]; · iexact HB
      isplitl [HC]; · iexact HC
      iexact HD
    isplitl [HS]; · iexact HS
    iexact HG
  have h₂ : (iprop((A ∗ B ∗ C ∗ D) ∗ S ∗ G) : sProp 𝕄) ⊢ iprop((A ∗ B ∗ C ∗ D ∗ S) ∗ G) := by
    iintro ⟨⟨HA, HB, HC, HD⟩, HS, HG⟩
    isplitl [HA HB HC HD HS]
    · isplitl [HA]; · iexact HA
      isplitl [HB]; · iexact HB
      isplitl [HC]; · iexact HC
      isplitl [HD]; · iexact HD
      iexact HS
    iexact HG
  exact BI.equiv_iff.mp ⟨h₁, h₂⟩

/-- What the launch hands the region, spelt out: the four buffers the region never touches, the accumulator's
    buffer at some contents, the generator register at some state. -/
private theorem PhiA1_eq (c : Dev nD) :
    (Pipeline.ΦA spec1 c : sProp 𝕄)
      = iprop(idleScoped (F := F) c ∗ (∃ d, owns (c : Thread nD τ) scM1 fullShare d) ∗ (∃ r, prngReg c r)) := by
  unfold Pipeline.ΦA idleScoped; rw [scopedRest1_eq]; simp only [scM1, owns_whole]
  exact regroup _ _ _ _ _ _

/-- An input window's buffer holds its block at every point: both inputs are fetched at every point, and a fetch
    of an uncut block fills the whole buffer. -/
private theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
private theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body's run in each of its three cases

Every load and every store of the body moves a whole buffer (the rectangle of the buffer's own extents at offset
zero), so what a buffer reads after the run is the payload of the last store into it, and what a load reads after a
store is that store's payload. -/

/-- The offsets of every load and store here are zero. -/
private theorem zeroOff : (![0, 0] : Fin 2 → Nat) = fun _ => 0 := funext fun a => by fin_cases a <;> rfl

set_option maxHeartbeats 1000000 in
/-- A row block's first point (the first conditional taken, the second not): whatever the accumulator held, it is
    reset to zero and then increased by the product of the two blocks; the output window's buffer is not touched. -/
private theorem runA (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : resetAt i) (hc1 : ¬emitAt i)
    (x0 : Vec F S2048x1024 .f32) (x1 : Vec F S1024x256 .f32) (xi : Vec F S2048x256 .f32)
    (E : Set ℕ) (K : PUnit → sProp 𝕄) :
    iprop(owns (c : Thread nD τ) a2 fullShare x0 ∗ owns (c : Thread nD τ) a3 fullShare x1
        ∗ owns (c : Thread nD τ) a4 fullShare xi ∗ (∃ d, owns (c : Thread nD τ) a5 fullShare d)
        ∗ (iprop(owns (c : Thread nD τ) a2 fullShare x0 ∗ owns (c : Thread nD τ) a3 fullShare x1
            ∗ owns (c : Thread nD τ) a4 fullShare xi
            ∗ owns (c : Thread nD τ) a5 fullShare (k1_pay2 x0 x1 (k1_pay1 (F := F)))) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, View.ld_unit_zero (S := S2048x1024) zeroOff,
    View.ld_unit_zero (S := S1024x256) zeroOff, View.readCov_unit_zero (S := S2048x256) _ zeroOff]

set_option maxHeartbeats 1000000 in
/-- A middle point (neither conditional taken): the accumulator goes from `xs` to `xs` plus the product, and the
    output window's buffer is not touched. -/
private theorem runB (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : ¬resetAt i) (hc1 : ¬emitAt i)
    (x0 : Vec F S2048x1024 .f32) (x1 : Vec F S1024x256 .f32) (xi : Vec F S2048x256 .f32) (xs : Vec F S2048x256 .f32)
    (E : Set ℕ) (K : PUnit → sProp 𝕄) :
    iprop(owns (c : Thread nD τ) a2 fullShare x0 ∗ owns (c : Thread nD τ) a3 fullShare x1
        ∗ owns (c : Thread nD τ) a4 fullShare xi ∗ owns (c : Thread nD τ) a5 fullShare xs
        ∗ (iprop(owns (c : Thread nD τ) a2 fullShare x0 ∗ owns (c : Thread nD τ) a3 fullShare x1
            ∗ owns (c : Thread nD τ) a4 fullShare xi
            ∗ owns (c : Thread nD τ) a5 fullShare (k1_pay2 x0 x1 xs)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2
  obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, h5.read_unread, View.ld_unit_zero (S := S2048x1024) zeroOff,
    View.ld_unit_zero (S := S1024x256) zeroOff, View.ld_unit_zero (S := S2048x256) zeroOff,
    View.readCov_unit_zero (S := S2048x256) _ zeroOff]

set_option maxHeartbeats 1000000 in
/-- A row block's last point (the second conditional taken): the accumulator as at a middle point, and its new
    contents copied over whatever the output window's buffer held. -/
private theorem runC (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : ¬resetAt i) (hc1 : emitAt i)
    (x0 : Vec F S2048x1024 .f32) (x1 : Vec F S1024x256 .f32) (xs : Vec F S2048x256 .f32)
    (E : Set ℕ) (K : PUnit → sProp 𝕄) :
    iprop(owns (c : Thread nD τ) a2 fullShare x0 ∗ owns (c : Thread nD τ) a3 fullShare x1
        ∗ (∃ d, owns (c : Thread nD τ) a4 fullShare d) ∗ owns (c : Thread nD τ) a5 fullShare xs
        ∗ (iprop(owns (c : Thread nD τ) a2 fullShare x0 ∗ owns (c : Thread nD τ) a3 fullShare x1
            ∗ owns (c : Thread nD τ) a4 fullShare (k1_pay2 x0 x1 xs)
            ∗ owns (c : Thread nD τ) a5 fullShare (k1_pay2 x0 x1 xs)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := h2.eq_unread hf0; obtain rfl := h3.eq_unread hf1
  obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    sl_unfold_words
    rw [View.read_writes_eq_canon _ _ _ (fun y => ⟨_, List.mem_cons_self .., View.mem_set_unit_zero zeroOff inb_S2048x256_S2048x256_0_0 y⟩)]
    rw [View.canon_cons_unit_zero (S := S2048x256) zeroOff]
    simp only [View.readAt_eq_ld, h2.read_unread, h3.read_unread, h5.read_unread, View.ld_unit_zero (S := S2048x1024) zeroOff,
      View.ld_unit_zero (S := S1024x256) zeroOff, View.ld_unit_zero (S := S2048x256) zeroOff,
      View.readCov_unit_zero (S := S2048x256) _ zeroOff]
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, h5.read_unread, View.ld_unit_zero (S := S2048x1024) zeroOff,
    View.ld_unit_zero (S := S1024x256) zeroOff, View.ld_unit_zero (S := S2048x256) zeroOff,
    View.readCov_unit_zero (S := S2048x256) _ zeroOff]

/-! ## The body obligation at a generic point -/

/-- The buffers the body is called with at point `t`, at their literal types, each a whole buffer. -/
private abbrev ms1_0 (t : Fin cfg1.N) : Memref sig .tc .vmem S2048x1024 .f32 := win1_0.stage (cfg1.slots t 0)
private abbrev hs1_0 (t : Fin cfg1.N) : (ms1_0 t).IsWhole := hstage1_0 ((cfg1.slots t 0).cast nbuf1_0)
private abbrev ms1_1 (t : Fin cfg1.N) : Memref sig .tc .vmem S1024x256 .f32 := win1_1.stage (cfg1.slots t 1)
private abbrev hs1_1 (t : Fin cfg1.N) : (ms1_1 t).IsWhole := hstage1_1 ((cfg1.slots t 1).cast nbuf1_1)
private abbrev ms1_2 (t : Fin cfg1.N) : Memref sig .tc .vmem S2048x256 .f32 := win1_2.stage (cfg1.slots t 2)
private abbrev hs1_2 (t : Fin cfg1.N) : (ms1_2 t).IsWhole := hstage1_2 ((cfg1.slots t 2).cast nbuf1_2)

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it must return. -/
private def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold the point's two blocks. By the point's index modulo 16 it is a
    first, a middle or a last point of its row block; the matching run applies, with the accumulator taken from the
    invariant (at anything at the very first point, else at what the point before left) and given back at this
    point's value, which is the recursion's step. At a first or middle point the output window is idle and its
    buffer goes back as found; at a last point it holds the accumulator, which is what the data say is written back. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live0 t], after1_0]
  rw [show (dat1 V c).leavesExact 1 t = owns (c : Thread nD τ) (ms1_1 t) fullShare ((dat1 V c).after 1 t) from by
    unfold Dat.leavesExact; rw [live1 t], after1_1]
  have hN : t.val < 128 := lt_of_lt_of_eq t.isLt (show cfg1.N = 128 from N_1)
  by_cases h0 : t.val % 16 = 0
  · have h1 : ¬t.val % 16 = 15 := by omega
    have hc0 : resetAt (grid1.coords t) := (resetAt_iff t).mpr h0
    have hc1 : ¬emitAt (grid1.coords t) := fun h => h1 ((emitAt_iff t).mp h)
    rw [Dat.leavesExact_idle (dat1 V c) 2 t (idle2 t h1) (noFlush2 t h1), accAt_reset V c t h0]
    by_cases hz : t.val = 0
    · rw [PhiS_castSucc V c t, PhiS_zero V c _ _ hz, PhiA1_eq]
      iintro ⟨⟨Hi, HS, Hg⟩, Ho, ⟨%d0, H0⟩, ⟨%d1, H1⟩, ⟨%d2, H2⟩⟩
      iapply (runA c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2) Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨Hi, HS, Hg⟩, Ho, ⟨%d0, H0⟩, ⟨%d1, H1⟩, ⟨%d2, H2⟩⟩
      iapply (runA c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2
  · have hz : t.val ≠ 0 := fun e => h0 (by rw [e])
    have hc0 : ¬resetAt (grid1.coords t) := fun h => h0 ((resetAt_iff t).mp h)
    rw [PhiS_castSucc V c t, PhiS_pos V c _ _ hz, accAt_step V c t h0]
    by_cases h1 : t.val % 16 = 15
    · have hc1 : emitAt (grid1.coords t) := (emitAt_iff t).mpr h1
      rw [show (dat1 V c).leavesExact 2 t = owns (c : Thread nD τ) (ms1_2 t) fullShare ((dat1 V c).after 2 t) from by
        unfold Dat.leavesExact; rw [live2 t h1], after1_2, accAt_step V c t h0]
      iintro ⟨⟨Hi, HS, Hg⟩, Ho, ⟨%d0, H0⟩, ⟨%d1, H1⟩, ⟨%d2, H2⟩⟩
      iapply (runC c (grid1.coords t) (ms1_0 t) (hs1_0 t) (ms1_1 t) (hs1_1 t) (ms1_2 t) (hs1_2 t) scM1 (Memref.isWhole_whole _)
        hc0 hc1 (lblk1 V c t) (rblk1 V c t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexact H2
    · have hc1 : ¬emitAt (grid1.coords t) := fun h => h1 ((emitAt_iff t).mp h)
      rw [Dat.leavesExact_idle (dat1 V c) 2 t (idle2 t h1) (noFlush2 t h1)]
      iintro ⟨⟨Hi, HS, Hg⟩, Ho, ⟨%d0, H0⟩, ⟨%d1, H1⟩, ⟨%d2, H2⟩⟩
      iapply (runB c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2

/-! ## The three facts the region's launch asks for -/

/-- At every point the body leaves the input blocks in place, takes the accumulator from the invariant (at anything
    where a row block starts) and gives it back increased by the blocks' product, and where a row block ends leaves
    it in the output window's buffer too; elsewhere that buffer is handed back as found. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨Hi, HS, Hg⟩
  isplitl [Hi]; · iexact Hi
  isplitl [HS]; · iexists _; iexact HS
  iexact Hg

end Cert.Kernel.Hand

end
-- ==== Proof.BitsSide.WholeRun.lean ====
/-
  The whole program, run from its launch to its return: the degree pass, the host operations that build the scaled
  features, the aggregation pass, the host operations that combine the result.

  Between two items every unscoped buffer of the core is held whole at named contents: at launch the memory's; after
  a kernel region the same with the region's output array at what its write-backs leave; after a stretch of host
  operations what those operations compute from the contents before.  Beside the buffers ride the generator
  register at some state and the core owing nothing.  The run ends with every unscoped buffer read back at the last
  of these contents, so that the arguments (never written) and the result can both be read off it.
-/
import proofs.«162367_j22325240004644_1_alg».proof.Proof.BitsSide.DegBody
import proofs.«162367_j22325240004644_1_alg».proof.Proof.BitsSide.AggBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
/-- The same read at the TensorCore's references (what the degree pass is entered with). -/
abbrev U0 : (c : Dev nD) → (b : Ref sig .tc) → Buf (Elt F) ((c : Thread nD τ).loc b) := fun c b => W0 m ρ c b

/-- After the degree pass: its arrays at what its write-backs leave, every other buffer as before. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first stretch of host operations (what the aggregation pass is entered with). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- After the aggregation pass. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the last stretch of host operations: what the program returns with. -/
abbrev W4 : Dev nD → Valuation τ sig (Elt F) := fun c => StableHlo.after hostOps2 (W3 m ρ c)

/-! ## The proof data family and what rides beside the buffers -/

/-- No kernel region has a prefetched table. -/
abbrev noTables : (p : Fin 2) → (pcfgs (F := F) p).Adm := fun p => (cfgs p).toPCfg_adm

/-- Each region's proof data at the contents it is entered with. -/
def pdats : (p : Fin 2) → (c : Dev nD) → Dat τ (Elt F) Unit ℕ (UR sig nD τ) ℕ (Pipeline.pin (pcfgs (F := F)) noTables p) c
  | ⟨0, _⟩ => fun c => dat0 (U0 m ρ) c
  | ⟨1, _⟩ => fun c => dat1 (U2 m ρ) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents. -/
abbrev Tₙ (c : Dev nD) : sProp 𝕄 := StableHlo.held (c : Thread nD τ) (Pipeline.ucRefs τ sig) (W4 m ρ c)

/-! ## The kernel regions as segments -/

set_option backward.isDefEq.respectTransparency.types false in
/-- The degree pass: entered from every unscoped buffer at the launch contents, left at `W1`.  Its arrays are split
    out of the unscoped buffers and put back at their exit contents; the generator register goes into the region's
    invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass: entered from every unscoped buffer at `W2`, left at `W3`.  As the degree pass, except that
    the region's invariant also carries the accumulator: it starts as the plain one (`hin1`) and gives the plain one
    back after the last point (`hout1`). -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (U2 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (U2 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's four items in order. -/
abbrev segs : List (Pipeline.Seg (pcfgs (F := F)) noTables (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]

/-- The program IS the run of those items. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final memory holds each unscoped buffer at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      unfold Tₙ StableHlo.held
      iintro ⟨Hh, HSI⟩
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.BitsSide.Kept.lean ====
/-
  Which buffers each item of the program leaves alone, read through the contents between the items: the four
  arguments reach the return as launched (no host operation writes one, and a kernel region only reads the adjacency
  matrix through an input window), the degree vector survives both stretches and the aggregation pass, and the linear
  layer's array survives the aggregation pass.
-/
import proofs.«162367_j22325240004644_1_alg».proof.Proof.BitsSide.WholeRun
import proofs.«162367_j22325240004644_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first stretch leaves every buffer it does not write as it found it. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The last stretch likewise. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- The degree pass only reads the adjacency matrix. -/
theorem W1_main_arg1 (c : Dev nD) : W1 m ρ c (Proc.devRef .tc main_arg1) = m ((c : Thread nD τ).loc main_arg1) :=
  (W1_arr m ρ c 0).trans (((dat0 (U0 m ρ) c).arrAt_in 0 rfl _).trans (A_eq0 (U0 m ρ) c 0))

/-- After the degree pass the degree vector's buffer holds what the pass wrote back. -/
theorem W1_main_v0 (c : Dev nD) : W1 m ρ c (Proc.devRef .tc main_v0) = (dat0 (U0 m ρ) c).arrAt 1 cfg0.N :=
  W1_arr m ρ c 1

theorem W1_main_arg0 (c : Dev nD) : W1 m ρ c (Proc.devRef .tc main_arg0) = m ((c : Thread nD τ).loc main_arg0) :=
  W1_of_ne m ρ c main_arg0 (by decide)
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)

theorem W2_main_arg1 (c : Dev nD) : W2 m ρ c (Proc.devRef .tc main_arg1) = m ((c : Thread nD τ).loc main_arg1) :=
  (W2_of m ρ c main_arg1 (by decide)).trans (W1_main_arg1 m ρ c)
theorem W2_main_v0 (c : Dev nD) : W2 m ρ c (Proc.devRef .tc main_v0) = (dat0 (U0 m ρ) c).arrAt 1 cfg0.N :=
  (W2_of m ρ c main_v0 (by decide)).trans (W1_main_v0 m ρ c)

/-- The aggregation pass only reads the adjacency matrix too. -/
theorem W3_main_arg1 (c : Dev nD) : W3 m ρ c (Proc.devRef .tc main_arg1) = m ((c : Thread nD τ).loc main_arg1) :=
  (W3_arr m ρ c 0).trans (((dat1 (U2 m ρ) c).arrAt_in 0 rfl _).trans ((A_eq1 (U2 m ρ) c 0).trans (W2_main_arg1 m ρ c)))

/-- After the aggregation pass its output array's buffer holds what the pass wrote back. -/
theorem W3_main_v9 (c : Dev nD) : W3 m ρ c (Proc.devRef .tc main_v9) = (dat1 (U2 m ρ) c).arrAt 2 cfg1.N :=
  W3_arr m ρ c 2

theorem W3_main_v0 (c : Dev nD) : W3 m ρ c (Proc.devRef .tc main_v0) = (dat0 (U0 m ρ) c).arrAt 1 cfg0.N :=
  (W3_of_ne m ρ c main_v0 (by decide)).trans (W2_main_v0 m ρ c)
theorem W3_main_v5 (c : Dev nD) : W3 m ρ c (Proc.devRef .tc main_v5) = W2 m ρ c (Proc.devRef .tc main_v5) :=
  W3_of_ne m ρ c main_v5 (by decide)

/-- The arguments at the return. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans (W1_main_arg0 m ρ c)
theorem W4_main_arg1 (c : Dev nD) : W4 m ρ c (Proc.devRef .tc main_arg1) = m ((c : Thread nD τ).loc main_arg1) :=
  (W4_of m ρ c main_arg1 (by decide)).trans (W3_main_arg1 m ρ c)
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of m ρ c main_arg2 (by decide)).trans (W1_main_arg2 m ρ c)
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <|
    (W2_of m ρ c main_arg3 (by decide)).trans (W1_main_arg3 m ρ c)

/-- THE FRAME: from any memory with zero counters the program runs to its end, nothing faulting, and its four
    argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.IdealSide.DegDefs.lean ====
/-
  The degree pass (the program's first kernel region): what it is handed and what it leaves, as data.

  The region walks the adjacency matrix in 64 blocks of 256 whole rows.  At point `t` the body is handed rows
  `256 t … 256 t + 255` and leaves, in the output window's buffer, one number per row: the inverse root of the
  row's sum plus one.  Nothing is carried from one point to the next.
-/
import proofs.«162367_j22325240004644_1_alg».proof.Proof.Gen.KernelIdeal.Launch
import proofs.«162367_j22325240004644_1_alg».proof.Proof.Gen.KernelIdeal.Skeleton
import proofs.«162367_j22325240004644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 adjacency rows of point `t`, at their literal type. -/
abbrev rows0 (c : Dev nD) (t : Fin cfg0.N) : Vec F S256x16384 .f32 := iblk0 V c 0 t

/-- What the body leaves in the output window's buffer, from the rows it loaded. -/
def out0_1 (x0 : Vec F S256x16384 .f32) : Vec F S256 .f32 := k0_pay1 x0

/-- The proof data of the degree pass on core `c`: the arrays as the region finds them; after the body the input
    window's buffer still at its block and the output's at `out0_1` of it; the invariant says nothing beyond the
    scoped buffers and the generator register being there; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (rows0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (rows0 V c t) := by dsimp only [dat0]

end Cert.KernelIdeal.Hand

end
-- ==== Proof.IdealSide.DegBody.lean ====
/-
  The degree pass's body, run on what the pipeline hands it at any point.
-/
import proofs.«162367_j22325240004644_1_alg».proof.Proof.IdealSide.DegDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- The rows of point `s` are what the proof data calls the input window's block there. -/
theorem blockOf_rows (c : Dev nD) (s : Fin cfg0.N) : (dat0 V c).blockOf 0 s = iblk0 V c 0 s := by
  unfold Dat.blockOf iblk0; rw [A_eq0]

/-- The input window is an input, never idle and never cut, and the body leaves its block where it was; so at
    every point, fetched there or not, its current staging buffer holds the 256 rows of that point. -/
theorem rows_before (c : Dev nD) (t : Fin cfg0.N) (d) : (dat0 V c).before 0 t d = rows0 V c t := by
  refine ((dat0 V c).before_in_eq_fetched 0 rfl (fun _ => rfl) (fun _ _ _ => rfl) (fun s => ?_) t d).trans ?_
  · rw [after0_0, blockOf_rows]
  · unfold Dat.fetched; rw [blockOf_rows]; rfl

/-- Both of the body's rectangles start at the origin of their buffer. -/
theorem origin1 : (![0] : Fin 1 → Nat) = fun _ => 0 := funext fun a => by fin_cases a; rfl
theorem origin2 : (![0, 0] : Fin 2 → Nat) = fun _ => 0 := funext fun a => by fin_cases a <;> rfl

/-- The store's rectangle is the whole output buffer, so it holds every index of it. -/
theorem store_covers (p0 : Vec F S256 .f32) (y : S256.Idx) :
    ∃ pc ∈ ([⟨Rect.unit (s := S256) ![0] S256.size inb_S256_S256_0, p0⟩] : List (View.Piece (Elt F) S256 .f32)),
      y ∈ pc.1.set :=
  ⟨_, List.mem_singleton_self _, View.mem_set_unit_zero (S := S256) origin1 inb_S256_S256_0 y⟩

set_option maxHeartbeats 1000000 in
/-- The kernel function on two whole memrefs, the first holding `x0` and the second anything: it reads the first,
    reads and discards the second, and overwrites the whole of the second with the payload of `x0`.  The one
    store's rectangle is the whole buffer, so what the buffer reads afterwards is that payload; the one load's
    rectangle is the whole input buffer, so the payload's argument is `x0` itself. -/
theorem degree_kernel_runs (c : Dev nD) (E : Set ℕ) (i : grid0.Coords)
    (arg1 : Memref sig .tc .vmem S256x16384 .f32) (harg1 : arg1.IsWhole)
    (arg2 : Memref sig .tc .vmem S256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr
    · ipureintro; rfl
    · iexact H0
  · iexists _; isplitr
    swap; · iexact H1
    ipureintro
    refine (View.read_writes_eq_canon _ _ _ (store_covers _)).trans ?_
    rw [View.canon_unit_zero origin1, View.readAt_eq_ld, View.ld_unit_zero (S := S256x16384) origin2]
    rfl

/-- What the body is called with at point `t`, the two windows spelt out, -/
def degPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def degPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at point `t`: the input window's buffer holds the point's rows, so the kernel function's triple
    applies to the two current staging memrefs; the invariant and the core's dues are the same at `t` and
    after it, and are carried around the call unread. -/
theorem degree_body_runs (c : Dev nD) (t : Fin cfg0.N) :
    degPre V c t ⊢ wp frame (wpE (defs₀ (F := F)) Variants.none c none) Set.univ (bodyAt0 t) (fun _ => degPost V c t) := by
  unfold degPre degPost bodyAt0
  simp only [rows_before]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (degree_kernel_runs c Set.univ _ _ _ _ _ (rows0 V c t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- At every point the body, handed its 256 rows, leaves them in place and leaves `out0_1` of them in the output
    window's buffer; the invariant and the core's dues pass through untouched. -/
theorem body_obligation0 (c : Dev nD) : BodyObligation (dat0 (F := F) V c) (defs₀ (F := F)) Variants.none () Set.univ := fun t => by
  rw [bigSep_W0, bigSep_W0]
  exact degree_body_runs V c t

end Cert.KernelIdeal.Hand

end
-- ==== Proof.IdealSide.AggDefs.lean ====
/-
  The aggregation pass (the program's second kernel region): what it is handed and what it leaves, as data.

  The grid is 8 row blocks by 16 column blocks, walked row block by row block, the column block `k = t mod 16`
  moving fastest.  At point `t` the body is handed a 2048 × 1024 block of the adjacency matrix and the matching
  1024 × 256 block of the scaled features, and keeps a 2048 × 256 accumulator in a scratch buffer of its own:
  reset to zero when `k = 0`, then increased by the product of the two blocks at every point; when `k = 15` the
  accumulator is copied to the output window's buffer, which is written back there and nowhere else.
-/
import proofs.«162367_j22325240004644_1_alg».proof.Proof.Gen.KernelIdeal.Launch
import proofs.«162367_j22325240004644_1_alg».proof.Proof.Gen.KernelIdeal.Skeleton
import proofs.«162367_j22325240004644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block and the feature block of point `t`, at their literal types. -/
abbrev lblk1 (c : Dev nD) (t : Fin cfg1.N) : Vec F S2048x1024 .f32 := iblk1 V c 0 t
abbrev rblk1 (c : Dev nD) (t : Fin cfg1.N) : Vec F S1024x256 .f32 := iblk1 V c 1 t

/-- The accumulator after the body at position `n`: started from zero where `n mod 16 = 0`, otherwise from what
    the point before left, and increased by the product of the point's two blocks. -/
def accAt (c : Dev nD) : (n : ℕ) → n < cfg1.N → Vec F S2048x256 .f32
  | 0, hn => k1_pay2 (lblk1 V c ⟨0, hn⟩) (rblk1 V c ⟨0, hn⟩) (k1_pay1 (F := F))
  | n + 1, hn =>
    if (n + 1) % 16 = 0 then k1_pay2 (lblk1 V c ⟨n + 1, hn⟩) (rblk1 V c ⟨n + 1, hn⟩) (k1_pay1 (F := F))
    else k1_pay2 (lblk1 V c ⟨n + 1, hn⟩) (rblk1 V c ⟨n + 1, hn⟩) (accAt c n (Nat.lt_of_succ_lt hn))

/-- At a point that starts a row block the accumulator restarts from zero. -/
theorem accAt_reset (c : Dev nD) (t : Fin cfg1.N) (h : t.val % 16 = 0) :
    accAt V c t.val t.isLt = k1_pay2 (lblk1 V c t) (rblk1 V c t) (k1_pay1 (F := F)) := by
  obtain ⟨n, hn⟩ := t
  cases n with
  | zero => rfl
  | succ n => exact if_pos h

/-- At any other point it continues from what the point before left. -/
theorem accAt_step (c : Dev nD) (t : Fin cfg1.N) (h : ¬t.val % 16 = 0) :
    accAt V c t.val t.isLt
      = k1_pay2 (lblk1 V c t) (rblk1 V c t) (accAt V c (t.val - 1) (Nat.lt_of_le_of_lt (Nat.sub_le _ _) t.isLt)) := by
  obtain ⟨n, hn⟩ := t
  cases n with
  | zero => exact absurd (Nat.zero_mod _) h
  | succ n => exact if_neg h

/-- The scratch accumulator, as the whole buffer it is. -/
abbrev scM1 : Memref sig .tc .vmem S2048x256 .f32 := Memref.whole cc1_scratch0

/-- The scoped buffers of the core that this region neither stages through nor accumulates in (the degree pass's
    staging buffers), each whole at some contents. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position `n`: before the first point the scoped buffers at anything and the
    generator register at some state; afterwards the same with the accumulator at what the point before left. -/
def PhiS (c : Dev nD) : (n : ℕ) → n ≤ cfg1.N → sProp 𝕄
  | 0, _ => Pipeline.ΦA spec1 c
  | n + 1, hn => iprop(idleScoped (F := F) c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(idleScoped (F := F) c ∗ owns (c : Thread nD τ) scM1 fullShare (accAt V c n hn) ∗ (∃ r, prngReg c r)) := rfl

theorem PhiS_pos (c : Dev nD) (n : ℕ) (h : n ≤ cfg1.N) (hz : n ≠ 0) :
    PhiS V c n h = iprop(idleScoped (F := F) c ∗ owns (c : Thread nD τ) scM1 fullShare (accAt V c (n - 1) (by omega)) ∗ (∃ r, prngReg c r)) := by
  cases n with
  | zero => exact absurd rfl hz
  | succ n => rfl

/-- The proof data of the aggregation pass on core `c`: the arrays as the region finds them; after the body the
    input windows' buffers still at their blocks and the output's at the accumulator (only read where `k = 15`, the
    points that write it back); the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Hand

end
-- ==== Proof.IdealSide.AggBody.lean ====
/-
  The aggregation pass's body, run on what the pipeline hands it at any point, in each of its three cases
  (a row block's first column block, a middle one, its last).
-/
import proofs.«162367_j22325240004644_1_alg».proof.Proof.IdealSide.AggDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything here is stated at this parameter
variable (V : (c : Dev nD) → (b : Ref sig .tc) → Buf (Elt F) ((c : Thread nD τ).loc b))

/-! ## Where the body's two conditionals hold, and where the output window is idle -/

/-- The first conditional's test, from the grid coordinates: the column block is the first. -/
private abbrev resetAt (i : grid1.Coords) : Prop :=
  (Scalar.cmpi .ne (Scalar.extui (Scalar.cmpi .eq (BitVec.ofNat 32 (i 1).val) 0#32)) 0#32) = 1#1
/-- It holds exactly where the point's index is a multiple of 16 (checked over the 128 points). -/
private theorem resetAt_iff : ∀ t : Fin cfg1.N, resetAt (grid1.coords t) ↔ t.val % 16 = 0 :=
  (by decide +kernel : ∀ t : Fin grid1.N, resetAt (grid1.coords t) ↔ t.val % 16 = 0)

/-- The second conditional's test: the column block is the last. -/
private abbrev emitAt (i : grid1.Coords) : Prop := k1_cond2 i = 1#1
/-- It holds exactly where the point's index is 15 modulo 16. -/
private theorem emitAt_iff : ∀ t : Fin cfg1.N, emitAt (grid1.coords t) ↔ t.val % 16 = 15 :=
  (by decide +kernel : ∀ t : Fin grid1.N, emitAt (grid1.coords t) ↔ t.val % 16 = 15)

/-- The two input windows are never idle. -/
private theorem live0 : ∀ t : Fin cfg1.N, cfg1.idle 0 (grid1.coords t) = false := by decide +kernel
private theorem live1 : ∀ t : Fin cfg1.N, cfg1.idle 1 (grid1.coords t) = false := by decide +kernel
/-- The output window is idle away from a row block's last point, live at it, -/
private theorem idle2 : ∀ t : Fin cfg1.N, ¬t.val % 16 = 15 → cfg1.idle 2 (grid1.coords t) = true :=
  (by decide +kernel : ∀ t : Fin grid1.N, ¬t.val % 16 = 15 → idle1 2 (grid1.coords t) = true)
private theorem live2 : ∀ t : Fin cfg1.N, t.val % 16 = 15 → cfg1.idle 2 (grid1.coords t) = false :=
  (by decide +kernel : ∀ t : Fin grid1.N, t.val % 16 = 15 → idle1 2 (grid1.coords t) = false)
/-- and not written back away from it. -/
private theorem noFlush2 (t : Fin cfg1.N) (h : ¬t.val % 16 = 15) : (cfg1.win 2).flush t = false := by
  cases hf : (cfg1.win 2).flush t with
  | false => rfl
  | true => exact absurd ((flush1_2 t).mp hf) h

/-- Separating conjunction regrouped: the accumulator's buffer taken out of the list of scoped buffers. -/
private theorem regroup (A B C D S G : sProp 𝕄) :
    (iprop((A ∗ B ∗ C ∗ D ∗ S) ∗ G) : sProp 𝕄) = iprop((A ∗ B ∗ C ∗ D) ∗ S ∗ G) := by
  have h₁ : (iprop((A ∗ B ∗ C ∗ D ∗ S) ∗ G) : sProp 𝕄) ⊢ iprop((A ∗ B ∗ C ∗ D) ∗ S ∗ G) := by
    iintro ⟨⟨HA, HB, HC, HD, HS⟩, HG⟩
    isplitl [HA HB HC HD]
    · isplitl [HA]; · iexact HA
      isplitl [HB]; · iexact HB
      isplitl [HC]; · iexact HC
      iexact HD
    isplitl [HS]; · iexact HS
    iexact HG
  have h₂ : (iprop((A ∗ B ∗ C ∗ D) ∗ S ∗ G) : sProp 𝕄) ⊢ iprop((A ∗ B ∗ C ∗ D ∗ S) ∗ G) := by
    iintro ⟨⟨HA, HB, HC, HD⟩, HS, HG⟩
    isplitl [HA HB HC HD HS]
    · isplitl [HA]; · iexact HA
      isplitl [HB]; · iexact HB
      isplitl [HC]; · iexact HC
      isplitl [HD]; · iexact HD
      iexact HS
    iexact HG
  exact BI.equiv_iff.mp ⟨h₁, h₂⟩

/-- What the launch hands the region, spelt out: the four buffers the region never touches, the accumulator's
    buffer at some contents, the generator register at some state. -/
private theorem PhiA1_eq (c : Dev nD) :
    (Pipeline.ΦA spec1 c : sProp 𝕄)
      = iprop(idleScoped (F := F) c ∗ (∃ d, owns (c : Thread nD τ) scM1 fullShare d) ∗ (∃ r, prngReg c r)) := by
  unfold Pipeline.ΦA idleScoped; rw [scopedRest1_eq]; simp only [scM1, owns_whole]
  exact regroup _ _ _ _ _ _

/-- An input window's buffer holds its block at every point: both inputs are fetched at every point, and a fetch
    of an uncut block fills the whole buffer. -/
private theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
private theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body's run in each of its three cases

Every load and every store of the body moves a whole buffer (the rectangle of the buffer's own extents at offset
zero), so what a buffer reads after the run is the payload of the last store into it, and what a load reads after a
store is that store's payload. -/

/-- The offsets of every load and store here are zero. -/
private theorem zeroOff : (![0, 0] : Fin 2 → Nat) = fun _ => 0 := funext fun a => by fin_cases a <;> rfl

set_option maxHeartbeats 1000000 in
/-- A row block's first point (the first conditional taken, the second not): whatever the accumulator held, it is
    reset to zero and then increased by the product of the two blocks; the output window's buffer is not touched. -/
private theorem runA (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : resetAt i) (hc1 : ¬emitAt i)
    (x0 : Vec F S2048x1024 .f32) (x1 : Vec F S1024x256 .f32) (xi : Vec F S2048x256 .f32)
    (E : Set ℕ) (K : PUnit → sProp 𝕄) :
    iprop(owns (c : Thread nD τ) a2 fullShare x0 ∗ owns (c : Thread nD τ) a3 fullShare x1
        ∗ owns (c : Thread nD τ) a4 fullShare xi ∗ (∃ d, owns (c : Thread nD τ) a5 fullShare d)
        ∗ (iprop(owns (c : Thread nD τ) a2 fullShare x0 ∗ owns (c : Thread nD τ) a3 fullShare x1
            ∗ owns (c : Thread nD τ) a4 fullShare xi
            ∗ owns (c : Thread nD τ) a5 fullShare (k1_pay2 x0 x1 (k1_pay1 (F := F)))) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, View.ld_unit_zero (S := S2048x1024) zeroOff,
    View.ld_unit_zero (S := S1024x256) zeroOff, View.readCov_unit_zero (S := S2048x256) _ zeroOff]

set_option maxHeartbeats 1000000 in
/-- A middle point (neither conditional taken): the accumulator goes from `xs` to `xs` plus the product, and the
    output window's buffer is not touched. -/
private theorem runB (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : ¬resetAt i) (hc1 : ¬emitAt i)
    (x0 : Vec F S2048x1024 .f32) (x1 : Vec F S1024x256 .f32) (xi : Vec F S2048x256 .f32) (xs : Vec F S2048x256 .f32)
    (E : Set ℕ) (K : PUnit → sProp 𝕄) :
    iprop(owns (c : Thread nD τ) a2 fullShare x0 ∗ owns (c : Thread nD τ) a3 fullShare x1
        ∗ owns (c : Thread nD τ) a4 fullShare xi ∗ owns (c : Thread nD τ) a5 fullShare xs
        ∗ (iprop(owns (c : Thread nD τ) a2 fullShare x0 ∗ owns (c : Thread nD τ) a3 fullShare x1
            ∗ owns (c : Thread nD τ) a4 fullShare xi
            ∗ owns (c : Thread nD τ) a5 fullShare (k1_pay2 x0 x1 xs)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2
  obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, h5.read_unread, View.ld_unit_zero (S := S2048x1024) zeroOff,
    View.ld_unit_zero (S := S1024x256) zeroOff, View.ld_unit_zero (S := S2048x256) zeroOff,
    View.readCov_unit_zero (S := S2048x256) _ zeroOff]

set_option maxHeartbeats 1000000 in
/-- A row block's last point (the second conditional taken): the accumulator as at a middle point, and its new
    contents copied over whatever the output window's buffer held. -/
private theorem runC (c : Dev nD) (i : grid1.Coords)
    (a2 : Memref sig .tc .vmem S2048x1024 .f32) (h2 : a2.IsWhole)
    (a3 : Memref sig .tc .vmem S1024x256 .f32) (h3 : a3.IsWhole)
    (a4 : Memref sig .tc .vmem S2048x256 .f32) (h4 : a4.IsWhole)
    (a5 : Memref sig .tc .vmem S2048x256 .f32) (h5 : a5.IsWhole)
    (hc0 : ¬resetAt i) (hc1 : emitAt i)
    (x0 : Vec F S2048x1024 .f32) (x1 : Vec F S1024x256 .f32) (xs : Vec F S2048x256 .f32)
    (E : Set ℕ) (K : PUnit → sProp 𝕄) :
    iprop(owns (c : Thread nD τ) a2 fullShare x0 ∗ owns (c : Thread nD τ) a3 fullShare x1
        ∗ (∃ d, owns (c : Thread nD τ) a4 fullShare d) ∗ owns (c : Thread nD τ) a5 fullShare xs
        ∗ (iprop(owns (c : Thread nD τ) a2 fullShare x0 ∗ owns (c : Thread nD τ) a3 fullShare x1
            ∗ owns (c : Thread nD τ) a4 fullShare (k1_pay2 x0 x1 xs)
            ∗ owns (c : Thread nD τ) a5 fullShare (k1_pay2 x0 x1 xs)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := h2.eq_unread hf0; obtain rfl := h3.eq_unread hf1
  obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    sl_unfold_words
    rw [View.read_writes_eq_canon _ _ _ (fun y => ⟨_, List.mem_cons_self .., View.mem_set_unit_zero zeroOff inb_S2048x256_S2048x256_0_0 y⟩)]
    rw [View.canon_cons_unit_zero (S := S2048x256) zeroOff]
    simp only [View.readAt_eq_ld, h2.read_unread, h3.read_unread, h5.read_unread, View.ld_unit_zero (S := S2048x1024) zeroOff,
      View.ld_unit_zero (S := S1024x256) zeroOff, View.ld_unit_zero (S := S2048x256) zeroOff,
      View.readCov_unit_zero (S := S2048x256) _ zeroOff]
  iexists _; isplitr
  swap; · iexact HS
  ipureintro
  sl_unfold_words
  rw [View.read_writes_eq_canon _ _ _ (fun y => ⟨_, List.mem_cons_self .., View.mem_set_unit_zero zeroOff inb_S2048x256_S2048x256_0_0 y⟩)]
  rw [View.canon_cons_unit_zero (S := S2048x256) zeroOff]
  simp only [View.readAt_eq_ld, h2.read_unread, h3.read_unread, h5.read_unread, View.ld_unit_zero (S := S2048x1024) zeroOff,
    View.ld_unit_zero (S := S1024x256) zeroOff, View.ld_unit_zero (S := S2048x256) zeroOff,
    View.readCov_unit_zero (S := S2048x256) _ zeroOff]

/-! ## The body obligation at a generic point -/

/-- The buffers the body is called with at point `t`, at their literal types, each a whole buffer. -/
private abbrev ms1_0 (t : Fin cfg1.N) : Memref sig .tc .vmem S2048x1024 .f32 := win1_0.stage (cfg1.slots t 0)
private abbrev hs1_0 (t : Fin cfg1.N) : (ms1_0 t).IsWhole := hstage1_0 ((cfg1.slots t 0).cast nbuf1_0)
private abbrev ms1_1 (t : Fin cfg1.N) : Memref sig .tc .vmem S1024x256 .f32 := win1_1.stage (cfg1.slots t 1)
private abbrev hs1_1 (t : Fin cfg1.N) : (ms1_1 t).IsWhole := hstage1_1 ((cfg1.slots t 1).cast nbuf1_1)
private abbrev ms1_2 (t : Fin cfg1.N) : Memref sig .tc .vmem S2048x256 .f32 := win1_2.stage (cfg1.slots t 2)
private abbrev hs1_2 (t : Fin cfg1.N) : (ms1_2 t).IsWhole := hstage1_2 ((cfg1.slots t 2).cast nbuf1_2)

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it must return. -/
private def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold the point's two blocks. By the point's index modulo 16 it is a
    first, a middle or a last point of its row block; the matching run applies, with the accumulator taken from the
    invariant (at anything at the very first point, else at what the point before left) and given back at this
    point's value, which is the recursion's step. At a first or middle point the output window is idle and its
    buffer goes back as found; at a last point it holds the accumulator, which is what the data say is written back. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live0 t], after1_0]
  rw [show (dat1 V c).leavesExact 1 t = owns (c : Thread nD τ) (ms1_1 t) fullShare ((dat1 V c).after 1 t) from by
    unfold Dat.leavesExact; rw [live1 t], after1_1]
  have hN : t.val < 128 := lt_of_lt_of_eq t.isLt (show cfg1.N = 128 from N_1)
  by_cases h0 : t.val % 16 = 0
  · have h1 : ¬t.val % 16 = 15 := by omega
    have hc0 : resetAt (grid1.coords t) := (resetAt_iff t).mpr h0
    have hc1 : ¬emitAt (grid1.coords t) := fun h => h1 ((emitAt_iff t).mp h)
    rw [Dat.leavesExact_idle (dat1 V c) 2 t (idle2 t h1) (noFlush2 t h1), accAt_reset V c t h0]
    by_cases hz : t.val = 0
    · rw [PhiS_castSucc V c t, PhiS_zero V c _ _ hz, PhiA1_eq]
      iintro ⟨⟨Hi, HS, Hg⟩, Ho, ⟨%d0, H0⟩, ⟨%d1, H1⟩, ⟨%d2, H2⟩⟩
      iapply (runA c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2) Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨Hi, HS, Hg⟩, Ho, ⟨%d0, H0⟩, ⟨%d1, H1⟩, ⟨%d2, H2⟩⟩
      iapply (runA c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2
  · have hz : t.val ≠ 0 := fun e => h0 (by rw [e])
    have hc0 : ¬resetAt (grid1.coords t) := fun h => h0 ((resetAt_iff t).mp h)
    rw [PhiS_castSucc V c t, PhiS_pos V c _ _ hz, accAt_step V c t h0]
    by_cases h1 : t.val % 16 = 15
    · have hc1 : emitAt (grid1.coords t) := (emitAt_iff t).mpr h1
      rw [show (dat1 V c).leavesExact 2 t = owns (c : Thread nD τ) (ms1_2 t) fullShare ((dat1 V c).after 2 t) from by
        unfold Dat.leavesExact; rw [live2 t h1], after1_2, accAt_step V c t h0]
      iintro ⟨⟨Hi, HS, Hg⟩, Ho, ⟨%d0, H0⟩, ⟨%d1, H1⟩, ⟨%d2, H2⟩⟩
      iapply (runC c (grid1.coords t) (ms1_0 t) (hs1_0 t) (ms1_1 t) (hs1_1 t) (ms1_2 t) (hs1_2 t) scM1 (Memref.isWhole_whole _)
        hc0 hc1 (lblk1 V c t) (rblk1 V c t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexact H2
    · have hc1 : ¬emitAt (grid1.coords t) := fun h => h1 ((emitAt_iff t).mp h)
      rw [Dat.leavesExact_idle (dat1 V c) 2 t (idle2 t h1) (noFlush2 t h1)]
      iintro ⟨⟨Hi, HS, Hg⟩, Ho, ⟨%d0, H0⟩, ⟨%d1, H1⟩, ⟨%d2, H2⟩⟩
      iapply (runB c (grid1.coords t) (ms1_0 t) (hs1_0 t) (ms1_1 t) (hs1_1 t) (ms1_2 t) (hs1_2 t) scM1 (Memref.isWhole_whole _)
        hc0 hc1 (lblk1 V c t) (rblk1 V c t) ((dat1 V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2

/-! ## The three facts the region's launch asks for -/

/-- At every point the body leaves the input blocks in place, takes the accumulator from the invariant (at anything
    where a row block starts) and gives it back increased by the blocks' product, and where a row block ends leaves
    it in the output window's buffer too; elsewhere that buffer is handed back as found. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨Hi, HS, Hg⟩
  isplitl [Hi]; · iexact Hi
  isplitl [HS]; · iexists _; iexact HS
  iexact Hg

end Cert.KernelIdeal.Hand

end
-- ==== Proof.IdealSide.WholeRun.lean ====
/-
  The whole program, run from its launch to its return: the degree pass, the host operations that build the scaled
  features, the aggregation pass, the host operations that combine the result.

  Between two items every unscoped buffer of the core is held whole at named contents: at launch the memory's; after
  a kernel region the same with the region's output array at what its write-backs leave; after a stretch of host
  operations what those operations compute from the contents before.  Beside the buffers ride the generator
  register at some state and the core owing nothing.  The run ends with every unscoped buffer read back at the last
  of these contents, so that the arguments (never written) and the result can both be read off it.
-/
import proofs.«162367_j22325240004644_1_alg».proof.Proof.IdealSide.DegBody
import proofs.«162367_j22325240004644_1_alg».proof.Proof.IdealSide.AggBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
/-- The same read at the TensorCore's references (what the degree pass is entered with). -/
abbrev U0 : (c : Dev nD) → (b : Ref sig .tc) → Buf (Elt F) ((c : Thread nD τ).loc b) := fun c b => W0 m ρ c b

/-- After the degree pass: its arrays at what its write-backs leave, every other buffer as before. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first stretch of host operations (what the aggregation pass is entered with). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- After the aggregation pass. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the last stretch of host operations: what the program returns with. -/
abbrev W4 : Dev nD → Valuation τ sig (Elt F) := fun c => StableHlo.after hostOps2 (W3 m ρ c)

/-! ## The proof data family and what rides beside the buffers -/

/-- No kernel region has a prefetched table. -/
abbrev noTables : (p : Fin 2) → (pcfgs (F := F) p).Adm := fun p => (cfgs p).toPCfg_adm

/-- Each region's proof data at the contents it is entered with. -/
def pdats : (p : Fin 2) → (c : Dev nD) → Dat τ (Elt F) Unit ℕ (UR sig nD τ) ℕ (Pipeline.pin (pcfgs (F := F)) noTables p) c
  | ⟨0, _⟩ => fun c => dat0 (U0 m ρ) c
  | ⟨1, _⟩ => fun c => dat1 (U2 m ρ) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents. -/
abbrev Tₙ (c : Dev nD) : sProp 𝕄 := StableHlo.held (c : Thread nD τ) (Pipeline.ucRefs τ sig) (W4 m ρ c)

/-! ## The kernel regions as segments -/

set_option backward.isDefEq.respectTransparency.types false in
/-- The degree pass: entered from every unscoped buffer at the launch contents, left at `W1`.  Its arrays are split
    out of the unscoped buffers and put back at their exit contents; the generator register goes into the region's
    invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass: entered from every unscoped buffer at `W2`, left at `W3`.  As the degree pass, except that
    the region's invariant also carries the accumulator: it starts as the plain one (`hin1`) and gives the plain one
    back after the last point (`hout1`). -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (U2 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (U2 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's four items in order. -/
abbrev segs : List (Pipeline.Seg (pcfgs (F := F)) noTables (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]

/-- The program IS the run of those items. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final memory holds each unscoped buffer at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      unfold Tₙ StableHlo.held
      iintro ⟨Hh, HSI⟩
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.IdealSide.Kept.lean ====
/-
  Which buffers each item of the program leaves alone, read through the contents between the items: the four
  arguments reach the return as launched (no host operation writes one, and a kernel region only reads the adjacency
  matrix through an input window), the degree vector survives both stretches and the aggregation pass, and the linear
  layer's array survives the aggregation pass.
-/
import proofs.«162367_j22325240004644_1_alg».proof.Proof.IdealSide.WholeRun
import proofs.«162367_j22325240004644_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first stretch leaves every buffer it does not write as it found it. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The last stretch likewise. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- The degree pass only reads the adjacency matrix. -/
theorem W1_main_arg1 (c : Dev nD) : W1 m ρ c (Proc.devRef .tc main_arg1) = m ((c : Thread nD τ).loc main_arg1) :=
  (W1_arr m ρ c 0).trans (((dat0 (U0 m ρ) c).arrAt_in 0 rfl _).trans (A_eq0 (U0 m ρ) c 0))

/-- After the degree pass the degree vector's buffer holds what the pass wrote back. -/
theorem W1_main_v0 (c : Dev nD) : W1 m ρ c (Proc.devRef .tc main_v0) = (dat0 (U0 m ρ) c).arrAt 1 cfg0.N :=
  W1_arr m ρ c 1

theorem W1_main_arg0 (c : Dev nD) : W1 m ρ c (Proc.devRef .tc main_arg0) = m ((c : Thread nD τ).loc main_arg0) :=
  W1_of_ne m ρ c main_arg0 (by decide)
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)

theorem W2_main_arg1 (c : Dev nD) : W2 m ρ c (Proc.devRef .tc main_arg1) = m ((c : Thread nD τ).loc main_arg1) :=
  (W2_of m ρ c main_arg1 (by decide)).trans (W1_main_arg1 m ρ c)
theorem W2_main_v0 (c : Dev nD) : W2 m ρ c (Proc.devRef .tc main_v0) = (dat0 (U0 m ρ) c).arrAt 1 cfg0.N :=
  (W2_of m ρ c main_v0 (by decide)).trans (W1_main_v0 m ρ c)

/-- The aggregation pass only reads the adjacency matrix too. -/
theorem W3_main_arg1 (c : Dev nD) : W3 m ρ c (Proc.devRef .tc main_arg1) = m ((c : Thread nD τ).loc main_arg1) :=
  (W3_arr m ρ c 0).trans (((dat1 (U2 m ρ) c).arrAt_in 0 rfl _).trans ((A_eq1 (U2 m ρ) c 0).trans (W2_main_arg1 m ρ c)))

/-- After the aggregation pass its output array's buffer holds what the pass wrote back. -/
theorem W3_main_v9 (c : Dev nD) : W3 m ρ c (Proc.devRef .tc main_v9) = (dat1 (U2 m ρ) c).arrAt 2 cfg1.N :=
  W3_arr m ρ c 2

theorem W3_main_v0 (c : Dev nD) : W3 m ρ c (Proc.devRef .tc main_v0) = (dat0 (U0 m ρ) c).arrAt 1 cfg0.N :=
  (W3_of_ne m ρ c main_v0 (by decide)).trans (W2_main_v0 m ρ c)
theorem W3_main_v5 (c : Dev nD) : W3 m ρ c (Proc.devRef .tc main_v5) = W2 m ρ c (Proc.devRef .tc main_v5) :=
  W3_of_ne m ρ c main_v5 (by decide)

/-- The arguments at the return. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans (W1_main_arg0 m ρ c)
theorem W4_main_arg1 (c : Dev nD) : W4 m ρ c (Proc.devRef .tc main_arg1) = m ((c : Thread nD τ).loc main_arg1) :=
  (W4_of m ρ c main_arg1 (by decide)).trans (W3_main_arg1 m ρ c)
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of m ρ c main_arg2 (by decide)).trans (W1_main_arg2 m ρ c)
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <|
    (W2_of m ρ c main_arg3 (by decide)).trans (W1_main_arg3 m ρ c)

/-- THE FRAME: from any memory with zero counters the program runs to its end, nothing faulting, and its four
    argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.GcnSpec.lean ====
/-
  The mathematics of the graph-convolution layer both programs compute, stated over the extended reals with
  no program in sight.

  Nodes are indexed by `Fin 16384`, input features by `Fin 512`, output features by `Fin 256`.  With
  `h = x wᵀ + b` the linear layer and `d i = rsqrt (∑ⱼ A i j + 1)` the inverse root of a node's degree
  (self-loop included), the kernel's result is

      outK i c = d i · (∑ⱼ A i j · (d j · h j c)) + (d i · d i) · h i c

  and the reference's is

      outR i c = ∑ⱼ (((A i j + [i = j]) · d' i) · d' j) · h j c,     d' i = rsqrt (∑ⱼ (A i j + [i = j])).

  When every entry is a real number and every degree `∑ⱼ A i j + 1` is positive, each `d i` is a positive
  real, every quantity above is real, and the two agree by distributing the self-loop term out of the sum:
  `∑ⱼ [i = j] · t j = t i`.  At a zero degree `d i = ⊤` and the distribution fails (`⊤ + ⊥ = ⊥`), which is
  why positivity of the degrees is assumed.
-/
import Idealize.ShloMosaic.PureOps.Ideal
import Idealize.ShloMosaic.PureOps.Ideal.Laws
import Idealize.ShloMosaic.Lib.ValueIdx

noncomputable section

open scoped BigOperators

namespace Cert.GcnSpec

open Idealize.ShloMosaic Idealize.ShloMosaic.ValueIdx

/-- The shapes of the four arguments, of a per-node vector and of the result. -/
abbrev SX : Shape := ⟨2, ![16384, 512]⟩
abbrev SA : Shape := ⟨2, ![16384, 16384]⟩
abbrev SW : Shape := ⟨2, ![256, 512]⟩
abbrev SB : Shape := ⟨1, ![256]⟩
abbrev SD : Shape := ⟨1, ![16384]⟩
abbrev SO : Shape := ⟨2, ![16384, 256]⟩

/-- The self-loop weight both programs add: the f32 word of 1.0, read on the extended reals. -/
abbrev one : EReal := Ideal.ofBits .f32 0x3F800000#32

variable (x : SX.Idx → EReal) (A : SA.Idx → EReal) (w : SW.Idx → EReal) (b : SB.Idx → EReal)

/-- The linear layer `h = x wᵀ + b` at node `j`, output feature `c`. -/
def lin (j : Fin 16384) (c : Fin 256) : EReal :=
  (∑ k : Fin 512, x (ix2 j k) * w (ix2 c k)) + b (ix1 c)

/-- A node's degree with its self-loop: the row sum of `A` plus one. -/
def deg (i : Fin 16384) : EReal := (∑ j : Fin 16384, A (ix2 i j)) + one

/-- The inverse root degree as the kernel computes it. -/
def dinv (i : Fin 16384) : EReal := Ideal.rsqrt (deg A i)

/-- The kernel's aggregate `A · (d ⊙ h)` at node `i`, feature `c`. -/
def agg (i : Fin 16384) (c : Fin 256) : EReal :=
  ∑ j : Fin 16384, A (ix2 i j) * (dinv A j * lin x w b j c)

/-- The kernel's result. -/
def outK (i : Fin 16384) (c : Fin 256) : EReal :=
  dinv A i * agg x A w b i c + (dinv A i * dinv A i) * lin x w b i c

/-- The adjacency with self-loops, as the reference's scatter-add makes it. -/
def adjR (i j : Fin 16384) : EReal := A (ix2 i j) + (if i = j then one else 0)

/-- The inverse root degree as the reference computes it. -/
def dinvR (i : Fin 16384) : EReal := Ideal.rsqrt (∑ j : Fin 16384, adjR A i j)

/-- The reference's result. -/
def outR (i : Fin 16384) (c : Fin 256) : EReal :=
  ∑ j : Fin 16384, ((adjR A i j * dinvR A i) * dinvR A j) * lin x w b j c

/-! ### Reals inside the extended reals -/

/-- The self-loop weight is the real number one. -/
private theorem one_eq : one = ((1 : ℝ) : EReal) :=
  (IdealRules.sign_bit.ideal_onePat .f32).trans EReal.coe_one.symm

/-- A finite sum of real numbers, taken in the extended reals, is the real sum. -/
private theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The inverse root of a positive real is the real inverse root. -/
private theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-! ### The identity, over any finite index -/

/-- Over the reals: the self-loop's term of the sum is the only one its indicator keeps, so adding the indicator
    to the weights adds exactly the diagonal term. -/
private theorem core_real {ι : Type*} [Fintype ι] [DecidableEq ι] (a : ι → ι → ℝ) (d η : ι → ℝ) (i : ι) :
    d i * (∑ j, a i j * (d j * η j)) + (d i * d i) * η i
      = ∑ j, (((a i j + (if i = j then 1 else 0)) * d i) * d j) * η j := by
  have hterm : ∀ j, (((a i j + (if i = j then (1 : ℝ) else 0)) * d i) * d j) * η j
      = d i * (a i j * (d j * η j)) + (if i = j then (d i * d j) * η j else 0) := by
    intro j; split_ifs <;> ring
  simp only [hterm, Finset.sum_add_distrib, Finset.sum_ite_eq, Finset.mem_univ, if_true, Finset.mul_sum]

/-- The same identity with every real read inside the extended reals. -/
private theorem core_ereal {ι : Type*} [Fintype ι] [DecidableEq ι] (a : ι → ι → ℝ) (d η : ι → ℝ) (i : ι) :
    (d i : EReal) * (∑ j, (a i j : EReal) * ((d j : EReal) * (η j : EReal))) + ((d i : EReal) * (d i : EReal)) * (η i : EReal)
      = ∑ j, ((((a i j : EReal) + (if i = j then ((1 : ℝ) : EReal) else 0)) * (d i : EReal)) * (d j : EReal)) * (η j : EReal) := by
  have hite : ∀ j, (if i = j then ((1 : ℝ) : EReal) else 0) = (((if i = j then 1 else 0 : ℝ)) : EReal) := by
    intro j; split_ifs <;> simp
  simp only [hite, ← EReal.coe_mul, ← EReal.coe_add, coe_sum]
  exact congrArg _ (core_real a d η i)

/-- THE LAW. On real entries and positive degrees the kernel's and the reference's results are one number. -/
theorem outK_eq_outR
    (hx : ∀ i, ∃ r : ℝ, x i = (r : EReal)) (hA : ∀ i, ∃ r : ℝ, A i = (r : EReal))
    (hw : ∀ i, ∃ r : ℝ, w i = (r : EReal)) (hb : ∀ i, ∃ r : ℝ, b i = (r : EReal))
    (hpos : ∀ i : Fin 16384, 0 < deg A i) (i : Fin 16384) (c : Fin 256) :
    outK x A w b i c = outR x A w b i c := by
  choose xr hxr using hx
  choose Ar hAr using hA
  choose wr hwr using hw
  choose br hbr using hb
  -- the linear layer is real
  have hlin : ∀ j c, lin x w b j c
      = (((∑ k : Fin 512, xr (ix2 j k) * wr (ix2 c k)) + br (ix1 c) : ℝ) : EReal) := by
    intro j c
    simp only [lin, hxr, hwr, hbr, ← EReal.coe_mul, coe_sum, ← EReal.coe_add]
  -- every degree is a positive real
  have hdeg : ∀ i, deg A i = (((∑ j : Fin 16384, Ar (ix2 i j)) + 1 : ℝ) : EReal) := by
    intro i
    simp only [deg, hAr, coe_sum, one_eq, ← EReal.coe_add]
  have hδ : ∀ i, 0 < (∑ j : Fin 16384, Ar (ix2 i j)) + 1 := by
    intro i
    have h := hpos i
    rw [hdeg i] at h
    exact_mod_cast h
  -- so its inverse root is a real
  have hdinv : ∀ i, dinv A i
      = (((Real.sqrt ((∑ j : Fin 16384, Ar (ix2 i j)) + 1))⁻¹ : ℝ) : EReal) := by
    intro i
    rw [dinv, hdeg i, rsqrt_pos _ (hδ i)]
  -- the reference's degree is the same number: the indicator's row sums to the one self-loop
  have hdinvR : ∀ i, dinvR A i = dinv A i := by
    intro i
    have hsum : (∑ j : Fin 16384, adjR A i j) = deg A i := by
      simp only [adjR, deg, Finset.sum_add_distrib, Finset.sum_ite_eq, Finset.mem_univ, if_true]
    rw [dinvR, dinv, hsum]
  simp only [outK, outR, agg, adjR, hdinvR, hdinv, hlin, hAr, one_eq]
  exact core_ereal (fun i j => Ar (ix2 i j))
    (fun i => (Real.sqrt ((∑ j : Fin 16384, Ar (ix2 i j)) + 1))⁻¹)
    (fun j => (∑ k : Fin 512, xr (ix2 j k) * wr (ix2 c k)) + br (ix1 c)) i

end Cert.GcnSpec

end
-- ==== Proof.IdealSide.DegValue.lean ====
/-
  The degree pass's result, on the extended reals: after the region the vector of inverse root degrees.
-/
import proofs.«162367_j22325240004644_1_alg».proof.Proof.IdealSide.DegDefs
import proofs.«162367_j22325240004644_1_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The adjacency matrix the region is entered with and the output vector after it, as plain functions of an index. -/
abbrev adjArr0 (c : Dev nD) : S16384x16384.Idx → EReal := V c main_arg1
abbrev degArr (c : Dev nD) : S16384.Idx → EReal := (dat0 (F := Ideal) V c).arrAt 1 cfg0.N

namespace Deg

/-- Adding one broadcast word to a vector and taking inverse roots, read at an index. -/
theorem rsqrt_add_word_apply {s : Shape} (v : FVec Ideal s .f32) (w : BitVec 32) (j : s.Idx) :
    rsqrt (addf v (broadcast s (Scalar.ofBits .f32 w))) j = Ideal.rsqrt (v j + Ideal.ofBits .f32 w) := rfl

/-- The payload at row `p` of a block of rows: the inverse root of that row's sum plus one.  The reduction over the
    column axis is the sum over the columns, the reduced index `p` with column `k` put back being `(p, k)`. -/
theorem pay_row (x0 : Vec Ideal S256x16384 .f32) (p : Fin 256) :
    k0_pay1 x0 (ix1 p) = Ideal.rsqrt ((∑ k : Fin 16384, x0 (ix2 p k)) + Cert.GcnSpec.one) := by
  unfold k0_pay1
  refine (rsqrt_add_word_apply _ _ _).trans ?_
  refine congrArg (fun s => Ideal.rsqrt (s + Cert.GcnSpec.one)) ?_
  refine (Ideal.multiReduction_add_single x0 _ reduces_S256x16384_S256 _ _ (ix1 p)).trans ?_
  exact Finset.sum_congr rfl fun k _ => congrArg x0 (funext fun a => Fin.ext (by
    match a with
    | ⟨0, _⟩ => rfl
    | ⟨1, _⟩ => rfl))

/-- The same at any index of the block. -/
theorem pay_at (x0 : Vec Ideal S256x16384 .f32) (j : S256.Idx) :
    k0_pay1 x0 j = Ideal.rsqrt ((∑ k : Fin 16384, x0 (ix2 (j 0) k)) + Cert.GcnSpec.one) :=
  (congrArg (k0_pay1 x0) (eq_ix1 j)).trans (pay_row x0 (j 0))

/-- The inverse root degree of row `r`, spelt out. -/
theorem dinv_row (A : S16384x16384.Idx → EReal) (r : Fin 16384) :
    Cert.GcnSpec.dinv A r = Ideal.rsqrt ((∑ k : Fin 16384, A (ix2 r k)) + Cert.GcnSpec.one) := rfl

/-- The two windows' index maps, decided once over the 64 points: both walk the rows block by block, point `t` at
    block `t`, and the input window stays at the first (and only) block of columns. -/
theorem idx_rows : ∀ t : Fin cfg0.N, win0_0.index t (0 : Fin 2) = t.val ∧ win0_0.index t (1 : Fin 2) = 0
    ∧ win0_1.index t (0 : Fin 1) = t.val :=
  (by decide +kernel : ∀ t : Fin grid0.N, _)

set_option maxRecDepth 65536 in
/-- What point `t` writes back is block `t` of the vector of inverse root degrees: entry `j` of the block is the
    payload at row `j` of the point's rows, that row is row `256 t + j` of the adjacency matrix with all its
    columns, and `256 t + j` is where entry `j` of the output block sits in the vector. -/
theorem flushed_rows (c : Dev nD) (t : Fin cfg0.N) :
    (dat0 (F := Ideal) V c).flushed 1 t
      = ((cfg0.win 1).blk t).view.read (Elt Ideal) (fun i => Cert.GcnSpec.dinv (adjArr0 V c) (i 0)) := by
  show (cfg0.win 1).cut (grid0.coords t) ((dat0 (F := Ideal) V c).after 1 t) = _
  rw [after0_1]
  unfold out0_1
  obtain ⟨e0, e1, e2⟩ := idx_rows t
  refine funext fun (j : S256.Idx) => ?_
  refine (pay_at (rows0 V c t) j).trans ?_
  show _ = (fun i : S16384.Idx => Cert.GcnSpec.dinv (adjArr0 V c) (i 0)) (((cfg0.win 1).blk t).view.emb j)
  refine Eq.trans ?_ (dinv_row (adjArr0 V c) _).symm
  refine congrArg (fun s => Ideal.rsqrt (s + Cert.GcnSpec.one)) (Finset.sum_congr rfl fun k _ => ?_)
  show adjArr0 V c (((cfg0.win 0).blk t).view.emb (ix2 (j 0) k)) = _
  refine congrArg (adjArr0 V c) ?_
  funext a; apply Fin.ext
  match a with
  | ⟨0, _⟩ =>
    show win0_0.index t (0 : Fin 2) * 256 + 1 * (j 0).val = win0_1.index t (0 : Fin 1) * 256 + 1 * (j 0).val
    omega
  | ⟨1, _⟩ =>
    show win0_0.index t (1 : Fin 2) * 16384 + 1 * k.val = k.val
    omega

/-- An index of the vector is in point `t`'s output block iff it lies in the block's range of 256 entries. -/
theorem mem_rows (t : Fin cfg0.N) (i : S16384.Idx) :
    i ∈ ((cfg0.win 1).blk t).view.set ↔ ∀ a : Fin 1, win0_1.index t a * S256.size a ≤ (i a).val
      ∧ (i a).val < win0_1.index t a * S256.size a + S256.size a := by
  show i ∈ ((View.whole main_v0).slice (win0_1.rect t)).set ↔ _
  rw [View.set_slice_whole, Rect.mem_set_unit]
  exact Iff.rfl

/-- Entry `r` of the vector is written back by point `r / 256`; every point writes back. -/
theorem rows_cover (i : S16384.Idx) :
    ∃ t : Fin cfg0.N, (cfg0.win 1).flush t = true ∧ i ∈ ((cfg0.win 1).blk t).view.set := by
  have hi : (i 0).val < 16384 := (i 0).isLt
  obtain ⟨t, ht⟩ : ∃ t : Fin cfg0.N, t.val = (i 0).val / 256 :=
    ⟨⟨(i 0).val / 256, show (i 0).val / 256 < 64 by omega⟩, rfl⟩
  obtain ⟨-, -, e2⟩ := idx_rows t
  refine ⟨t, flush0_1 t, ?_⟩
  rw [mem_rows]
  intro a
  match a with
  | ⟨0, _⟩ =>
    show win0_1.index t (0 : Fin 1) * 256 ≤ (i 0).val ∧ (i 0).val < win0_1.index t (0 : Fin 1) * 256 + 256
    omega

end Deg

/-- After the region, entry `i` of the output array is `rsqrt (∑ⱼ A i j + 1)` of the adjacency matrix the region
    was entered with: point `t` wrote rows `256 t … 256 t + 255`, and the 64 points cover the vector. -/
theorem deg_final (c : Dev nD) :
    degArr V c = fun i => Cert.GcnSpec.dinv (adjArr0 V c) (i 0) :=
  (dat0 (F := Ideal) V c).arrAt_eq_of_cover 1 (fun i => Cert.GcnSpec.dinv (adjArr0 V c) (i 0))
    (fun t _ => Deg.flushed_rows V c t) Deg.rows_cover

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.IdealSide.AggValue.lean ====
/-
  The aggregation pass's result, on the extended reals: after the region the product of the adjacency matrix
  with the scaled features, the sixteen column blocks' partial sums joined into one sum over all nodes.
-/
import proofs.«162367_j22325240004644_1_alg».proof.Proof.IdealSide.AggDefs
import proofs.«162367_j22325240004644_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The adjacency matrix and the scaled-feature array the region is entered with, and the output array after it,
    as plain functions of an index. -/
abbrev adjArr (c : Dev nD) : S16384x16384.Idx → EReal := V c main_arg1
abbrev featArr (c : Dev nD) : S16384x256.Idx → EReal := V c main_v8
abbrev aggArr (c : Dev nD) : S16384x256.Idx → EReal := (dat1 (F := Ideal) V c).arrAt 2 cfg1.N

namespace Agg

/-! ## Sums: consecutive runs joined -/

/-- `n` consecutive runs of length `m` make up one run of length `m · n`. -/
theorem sum_blocks (g : ℕ → EReal) (m : ℕ) : ∀ n : ℕ,
    ∑ kb ∈ Finset.range n, ∑ kk : Fin m, g (m * kb + kk) = ∑ j ∈ Finset.range (m * n), g j
  | 0 => by simp
  | n + 1 => by
    rw [Finset.sum_range_succ, sum_blocks g m n, Nat.mul_succ, Finset.sum_range_add,
      Fin.sum_univ_eq_sum_range (fun x => g (m * n + x)) m]

/-! ## What the body computes at a point -/

/-- The block the accumulator restarts from is zero everywhere. -/
theorem pay1_at (i : S2048x256.Idx) : k1_pay1 (F := Ideal) i = 0 := by
  unfold k1_pay1
  rw [shapeCast_self]
  exact Ideal.ofBits_zero_f32

/-- One step of the body at entry `(r, q)`: the accumulator's entry plus the two blocks' product there, a sum over
    the 1024 shared coordinates. Rounding to the narrower type changes nothing on the extended reals. -/
theorem pay2_at (x0 : Vec Ideal S2048x1024 .f32) (x1 : Vec Ideal S1024x256 .f32) (acc : Vec Ideal S2048x256 .f32)
    (r : Fin 2048) (q : Fin 256) :
    k1_pay2 x0 x1 acc (ix2 r q) = acc (ix2 r q) + ∑ kk : Fin 1024, x0 (ix2 r kk) * x1 (ix2 kk q) := by
  unfold k1_pay2
  rw [shapeCast_self, shapeCast_self]
  refine (addf_apply _ _ _).trans ?_
  refine congrArg (acc (ix2 r q) + ·) ?_
  exact Cert.LibDot.matmul_zero_at _ rfl rfl rfl rfl rfl rfl none _ _ r q

/-! ## The index maps over the grid, and the blocks read at an entry -/

/-- At point `t` the row block is `t / 16` and the column block `t % 16`: the adjacency block is `(t / 16, t % 16)`, the
    feature block `(t % 16, 0)`, the output block `(t / 16, 0)`. -/
theorem idx_facts : ∀ t : Fin cfg1.N,
    win1_0.index t 0 = t.val / 16 ∧ win1_0.index t 1 = t.val % 16 ∧
    win1_1.index t 0 = t.val % 16 ∧ win1_1.index t 1 = 0 ∧
    win1_2.index t 0 = t.val / 16 ∧ win1_2.index t 1 = 0 :=
  (by decide +kernel : ∀ t : Fin grid1.N, _)

/-- The output's blocks are whole at every point. -/
theorem xsize_facts : ∀ t : Fin cfg1.N,
    win1_2.xsize (grid1.coords t) 0 = 2048 ∧ win1_2.xsize (grid1.coords t) 1 = 256 :=
  (by decide +kernel : ∀ t : Fin grid1.N, _)

theorem N1 : cfg1.N = 128 := by decide

/-- The two arrays read at natural-number coordinates (zero outside their extents, which is never read). -/
def adjN (c : Dev nD) (i j : ℕ) : EReal :=
  if h : i < 16384 ∧ j < 16384 then adjArr V c (ix2 ⟨i, h.1⟩ ⟨j, h.2⟩) else 0
def featN (c : Dev nD) (j q : ℕ) : EReal :=
  if h : j < 16384 ∧ q < 256 then featArr V c (ix2 ⟨j, h.1⟩ ⟨q, h.2⟩) else 0

/-- Entry `(r, kk)` of the adjacency block of point `n` is the matrix at row `2048 · (n / 16) + r`, column
    `1024 · (n % 16) + kk`: a block's coordinate is the block index times the block size plus the coordinate inside. -/
theorem lblk_at (c : Dev nD) (n : ℕ) (hn : n < cfg1.N) (r : Fin 2048) (kk : Fin 1024) :
    lblk1 V c ⟨n, hn⟩ (ix2 r kk) = adjN V c (2048 * (n / 16) + r) (1024 * (n % 16) + kk) := by
  have hn' : n < 128 := N1 ▸ hn
  have h00 : win1_0.index ⟨n, hn⟩ 0 = n / 16 := (idx_facts ⟨n, hn⟩).1
  have h01 : win1_0.index ⟨n, hn⟩ 1 = n % 16 := (idx_facts ⟨n, hn⟩).2.1
  unfold adjN
  rw [dif_pos ⟨by omega, by omega⟩]
  unfold lblk1 iblk1
  rw [View.read_apply]
  show V c main_arg1 _ = V c main_arg1 _
  refine congrArg (V c main_arg1) ?_
  funext a
  apply Fin.ext
  match a with
  | ⟨0, _⟩ => show win1_0.index ⟨n, hn⟩ 0 * 2048 + 1 * (r : ℕ) = 2048 * (n / 16) + r
              rw [h00]; omega
  | ⟨1, _⟩ => show win1_0.index ⟨n, hn⟩ 1 * 1024 + 1 * (kk : ℕ) = 1024 * (n % 16) + kk
              rw [h01]; omega

/-- Entry `(kk, q)` of the feature block of point `n` is the array at row `1024 · (n % 16) + kk`, column `q`. -/
theorem rblk_at (c : Dev nD) (n : ℕ) (hn : n < cfg1.N) (kk : Fin 1024) (q : Fin 256) :
    rblk1 V c ⟨n, hn⟩ (ix2 kk q) = featN V c (1024 * (n % 16) + kk) q := by
  have hn' : n < 128 := N1 ▸ hn
  have h10 : win1_1.index ⟨n, hn⟩ 0 = n % 16 := (idx_facts ⟨n, hn⟩).2.2.1
  have h11 : win1_1.index ⟨n, hn⟩ 1 = 0 := (idx_facts ⟨n, hn⟩).2.2.2.1
  unfold featN
  rw [dif_pos ⟨by omega, q.isLt⟩]
  unfold rblk1 iblk1
  rw [View.read_apply]
  show V c main_v8 _ = V c main_v8 _
  refine congrArg (V c main_v8) ?_
  funext a
  apply Fin.ext
  match a with
  | ⟨0, _⟩ => show win1_1.index ⟨n, hn⟩ 0 * 1024 + 1 * (kk : ℕ) = 1024 * (n % 16) + kk
              rw [h10]; omega
  | ⟨1, _⟩ => show win1_1.index ⟨n, hn⟩ 1 * 256 + 1 * (q : ℕ) = q
              rw [h11]; omega

/-! ## The accumulator after a point -/

/-- Column block `kb`'s share of the entry at row `i`, column `q`. -/
def term (c : Dev nD) (i q kb : ℕ) : EReal :=
  ∑ kk : Fin 1024, adjN V c i (1024 * kb + kk) * featN V c (1024 * kb + kk) q

/-- After point `n` the accumulator's entry `(r, q)` holds the shares of the column blocks `0 … n % 16` of the row
    block `n / 16`. Addition on the extended reals is commutative and associative, so the order the shares were added
    in does not matter; where the row block starts the sum starts from zero. -/
theorem acc_inv (c : Dev nD) (n : ℕ) : ∀ (hn : n < cfg1.N) (r : Fin 2048) (q : Fin 256),
    accAt V c n hn (ix2 r q) = ∑ kb ∈ Finset.range (n % 16 + 1), term V c (2048 * (n / 16) + r) q kb := by
  induction n using Nat.strong_induction_on with
  | _ n ih =>
    intro hn r q
    by_cases h : n % 16 = 0
    · have e : accAt V c n hn = k1_pay2 (lblk1 V c ⟨n, hn⟩) (rblk1 V c ⟨n, hn⟩) (k1_pay1 (F := Ideal)) :=
        accAt_reset V c ⟨n, hn⟩ h
      rw [e, pay2_at, pay1_at, zero_add, h, Finset.sum_range_succ, Finset.sum_range_zero, zero_add]
      unfold term
      refine Finset.sum_congr rfl fun kk _ => ?_
      rw [lblk_at, rblk_at, h]
    · have e : accAt V c n hn = k1_pay2 (lblk1 V c ⟨n, hn⟩) (rblk1 V c ⟨n, hn⟩) (accAt V c (n - 1) (by omega)) :=
        accAt_step V c ⟨n, hn⟩ h
      have e1 : (n - 1) % 16 + 1 = n % 16 := by omega
      have e2 : (n - 1) / 16 = n / 16 := by omega
      rw [e, pay2_at, ih (n - 1) (by omega) _ r q, e1, e2, Finset.sum_range_succ]
      refine congrArg (_ + ·) ?_
      unfold term
      refine Finset.sum_congr rfl fun kk _ => ?_
      rw [lblk_at, rblk_at]

/-! ## The array after the region -/

/-- The product of the two arrays, entry by entry. -/
def G (c : Dev nD) : S16384x256.Idx → EReal :=
  fun i => ∑ j : Fin 16384, adjArr V c (ix2 (i 0) j) * featArr V c (ix2 j (i 1))

theorem G_eq (c : Dev nD) (i : S16384x256.Idx) :
    G V c i = ∑ j ∈ Finset.range 16384, adjN V c (i 0) j * featN V c j (i 1) := by
  unfold G
  rw [Finset.sum_range]
  refine Finset.sum_congr rfl fun j _ => ?_
  unfold adjN featN
  rw [dif_pos ⟨(i 0).isLt, j.isLt⟩, dif_pos ⟨j.isLt, (i 1).isLt⟩]
  rfl

/-- Entry `(r, q)` of the output block of point `t`, read off any contents of the output array, is the array at row
    `2048 · (t / 16) + r`, column `q`. -/
theorem read_out_at (g : S16384x256.Idx → EReal) (t : Fin cfg1.N) (r : Fin 2048) (q : Fin 256)
    (h : 2048 * (t.val / 16) + r < 16384) :
    ((cfg1.win 2).blk t).view.read (Elt Ideal) g (ix2 r q) = g (ix2 ⟨2048 * (t.val / 16) + r, h⟩ q) := by
  obtain ⟨-, -, -, -, h20, h21⟩ := idx_facts t
  rw [View.read_apply]
  show g _ = g _
  refine congrArg g ?_
  funext a
  apply Fin.ext
  match a with
  | ⟨0, _⟩ => show win1_2.index t 0 * 2048 + 1 * (r : ℕ) = 2048 * (t.val / 16) + r
              rw [h20]; omega
  | ⟨1, _⟩ => show win1_2.index t 1 * 256 + 1 * (q : ℕ) = q
              rw [h21]; omega

/-- At the last column block of a row block the accumulator is that row block of the product: the sixteen shares
    of 1024 terms each are the one sum over all 16384 nodes. -/
theorem acc_flush (c : Dev nD) (t : Fin cfg1.N) (h15 : t.val % 16 = 15) :
    accAt V c t.val t.isLt = ((cfg1.win 2).blk t).view.read (Elt Ideal) (G V c) := by
  have ht : t.val < 128 := N1 ▸ t.isLt
  funext x
  obtain ⟨r, q, rfl⟩ : ∃ r q, x = ix2 r q := ⟨x 0, x 1, eq_ix2 x⟩
  rw [read_out_at (G V c) t r q (by omega), acc_inv, G_eq, h15]
  exact sum_blocks (fun j => adjN V c (2048 * (t.val / 16) + r) j * featN V c j q) 1024 16

/-- What a point that writes the output back writes is its block of the product. -/
theorem flushed_eq (c : Dev nD) (t : Fin cfg1.N) (hf : (cfg1.win 2).flush t = true) :
    (dat1 (F := Ideal) V c).flushed 2 t = ((cfg1.win 2).blk t).view.read (Elt Ideal) (G V c) := by
  show (cfg1.win 2).cut (grid1.coords t) ((dat1 (F := Ideal) V c).after 2 t) = _
  rw [after1_2]
  exact acc_flush V c t ((flush1_2 t).mp hf)

/-- Every entry of the output lies in the block written back at the last column block of its row block. -/
theorem cover (i : S16384x256.Idx) :
    ∃ t : Fin cfg1.N, (cfg1.win 2).flush t = true ∧ i ∈ ((cfg1.win 2).blk t).view.set := by
  have h0 : (i 0 : ℕ) < 16384 := (i 0).isLt
  have h1 : (i 1 : ℕ) < 256 := (i 1).isLt
  have ht : 16 * ((i 0 : ℕ) / 2048) + 15 < cfg1.N := by rw [N1]; omega
  obtain ⟨-, -, -, -, h20, h21⟩ := idx_facts ⟨_, ht⟩
  obtain ⟨hx0, hx1⟩ := xsize_facts ⟨_, ht⟩
  refine ⟨⟨_, ht⟩, (flush1_2 _).mpr (by show (16 * ((i 0 : ℕ) / 2048) + 15) % 16 = 15; omega), ?_⟩
  show i ∈ ((View.whole main_v9).slice (win1_2.rect ⟨_, ht⟩)).set
  rw [View.set_slice_whole, Rect.mem_set_unit]
  intro a
  match a with
  | ⟨0, _⟩ =>
    show win1_2.index ⟨_, ht⟩ 0 * 2048 ≤ (i 0 : ℕ) ∧ (i 0 : ℕ) < win1_2.index ⟨_, ht⟩ 0 * 2048 + win1_2.xsize (grid1.coords ⟨_, ht⟩) 0
    rw [h20, hx0]
    show (16 * ((i 0 : ℕ) / 2048) + 15) / 16 * 2048 ≤ (i 0 : ℕ) ∧ (i 0 : ℕ) < (16 * ((i 0 : ℕ) / 2048) + 15) / 16 * 2048 + 2048
    omega
  | ⟨1, _⟩ =>
    show win1_2.index ⟨_, ht⟩ 1 * 256 ≤ (i 1 : ℕ) ∧ (i 1 : ℕ) < win1_2.index ⟨_, ht⟩ 1 * 256 + win1_2.xsize (grid1.coords ⟨_, ht⟩) 1
    rw [h21, hx1]
    omega

end Agg

/-- After the region, entry `(i, c)` of the output array is `∑ⱼ A i j · S j c`, `A` the adjacency matrix and `S`
    the scaled-feature array the region was entered with. -/
theorem agg_final (c : Dev nD) :
    aggArr V c = fun i => ∑ j : Fin 16384, adjArr V c (ix2 (i 0) j) * featArr V c (ix2 j (i 1)) :=
  (dat1 (F := Ideal) V c).arrAt_eq_of_cover 2 (Agg.G V c) (Agg.flushed_eq V c) Agg.cover

end Cert.KernelIdeal.Hand

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.IdealSide.HostStretch.lean ====
/-
  The host operations between and after the two kernel regions, read at an index on the extended reals.

  Each stretch is a straight line of whole-array operations, so what a result buffer holds afterwards is one
  composed term in the buffers the stretch started from. Read at an entry (p, q) that term is plain arithmetic:
  a product against transposed weights is the sum over k of x(p, k) · w(q, k); a bias made a row and spread down
  the columns contributes b(q); a per-node vector made a column and spread along the rows contributes its entry p.
-/
import proofs.«162367_j22325240004644_1_alg».proof.Proof.Gen.KernelIdeal.Launch
import proofs.«162367_j22325240004644_1_alg».proof.Proof.GcnSpec
import proofs.«162367_j22325240004644_1_alg».proof.Proof.LibDot
import proofs.«162367_j22325240004644_1_alg».proof.Proof.LibRowRead
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (X : Valuation τ sig (Elt Ideal))

/-- The buffers a stretch reads, as plain functions of an index. -/
abbrev xArg0 : S16384x512.Idx → EReal := X (Proc.devRef .tc main_arg0)
abbrev xArg2 : S256x512.Idx → EReal := X (Proc.devRef .tc main_arg2)
abbrev xArg3 : S256.Idx → EReal := X (Proc.devRef .tc main_arg3)
abbrev xV0 : S16384.Idx → EReal := X (Proc.devRef .tc main_v0)
abbrev xV5 : S16384x256.Idx → EReal := X (Proc.devRef .tc main_v5)
abbrev xV9 : S16384x256.Idx → EReal := X (Proc.devRef .tc main_v9)
/-- The buffers a stretch writes that the proof reads, after it. -/
abbrev after1V5 : S16384x256.Idx → EReal := StableHlo.after hostOps1 X (Proc.devRef .tc main_v5)
abbrev after1V8 : S16384x256.Idx → EReal := StableHlo.after hostOps1 X (Proc.devRef .tc main_v8)
abbrev after2V17 : S16384x256.Idx → EReal := StableHlo.after hostOps2 X (Proc.devRef .tc main_v17)

/-! ## The composed terms -/

/-- The linear layer as the operations build it: the features times the transposed weights, plus the bias made
    a row and spread down the columns. -/
private abbrev linTerm (x : FVec Ideal S16384x512 .f32) (w : FVec Ideal S256x512 .f32) (b : FVec Ideal S256 .f32) :
    FVec Ideal S16384x256 .f32 :=
  addf (F := Ideal) (φ := .f32)
    (Host.dotGeneral (F := Ideal) (φ₁ := .f32) (φ₂ := .f32) dot_S16384x512_S512x256_S16384x256_1_0_0_1_n_n none x
      (transpose S512x256 [1, 0] w transposes_S256x512_S512x256_1_0))
    (broadcastInDim S16384x256 ![0, 1] bcast_S1x256_S16384x256_0_1 (broadcastInDim S1x256 ![1] bcast_S256_S1x256_1 b))

/-- A per-node vector made a column and spread along the rows. -/
private abbrev perNode (v : FVec Ideal S16384 .f32) : FVec Ideal S16384x256 .f32 :=
  broadcastInDim S16384x256 ![0, 1] bcast_S16384x1_S16384x256_0_1 (broadcastInDim S16384x1 ![0] bcast_S16384_S16384x1_0 v)

/-- What the first stretch leaves in `main_v5`, as one term in the buffers it started from. -/
private theorem after1V5_term : after1V5 X = linTerm (xArg0 X) (xArg2 X) (xArg3 X) := by
  show StableHlo.after hostOps1 X (Proc.devRef .tc main_v5) = _
  after_results

/-- What it leaves in `main_v8`. -/
private theorem after1V8_term :
    after1V8 X = mulf (F := Ideal) (φ := .f32) (perNode (xV0 X)) (linTerm (xArg0 X) (xArg2 X) (xArg3 X)) := by
  show StableHlo.after hostOps1 X (Proc.devRef .tc main_v8) = _
  after_results

/-- What the last stretch leaves in `main_v17`. -/
private theorem after2V17_term :
    after2V17 X = addf (F := Ideal) (φ := .f32) (mulf (F := Ideal) (φ := .f32) (perNode (xV0 X)) (xV9 X))
      (mulf (F := Ideal) (φ := .f32) (perNode (mulf (F := Ideal) (φ := .f32) (xV0 X) (xV0 X))) (xV5 X)) := by
  show StableHlo.after hostOps2 X (Proc.devRef .tc main_v17) = _
  after_results

/-! ## The terms at an entry -/

/-- The linear layer's term at (p, q): the sum over the input features of x(p, k) · w(q, k), plus b(q). -/
private theorem linTerm_at (x : FVec Ideal S16384x512 .f32) (w : FVec Ideal S256x512 .f32) (b : FVec Ideal S256 .f32)
    (p : Fin 16384) (q : Fin 256) : linTerm x w b (ix2 p q) = Cert.GcnSpec.lin x w b p q := by
  unfold linTerm Cert.GcnSpec.lin
  rw [addf_apply]
  congr 1
  · -- the product: the transposed weights are read at (k, q), which is the weights' entry (q, k)
    simp only [Host.dotGeneral]
    rw [Cert.LibDot.dotGeneral_at _ rfl rfl rfl rfl rfl rfl]
    refine Finset.sum_congr rfl fun k _ => ?_
    congr 1
    exact transpose_apply [1, 0] w transposes_S256x512_S512x256_1_0 (ix2 k q) (ix2 q k)
      (fun a => match a with | ⟨0, _⟩ => rfl | ⟨1, _⟩ => rfl)
  · -- the bias: one entry per column
    exact Cert.LibRowRead.bcast_perCol_apply bcast_S256_S1x256_1 bcast_S1x256_S16384x256_0_1 b p q

/-- A per-node vector spread over the array reads, at (p, q), its entry p. -/
private theorem perNode_at (v : FVec Ideal S16384 .f32) (p : Fin 16384) (q : Fin 256) :
    perNode v (ix2 p q) = v (ix1 p) :=
  Cert.LibRowRead.bcast_perRow_apply bcast_S16384_S16384x1_0 bcast_S16384x1_S16384x256_0_1 v p q

/-! ## The three results -/

/-- The first stretch leaves the linear layer `x wᵀ + b` in `main_v5`. -/
theorem host1_v5 :
    after1V5 X = fun i => Cert.GcnSpec.lin (xArg0 X) (xArg2 X) (xArg3 X) (i 0) (i 1) := by
  funext i
  obtain ⟨p, q, rfl⟩ : ∃ (p : Fin 16384) (q : Fin 256), i = ix2 p q := ⟨i 0, i 1, eq_ix2 i⟩
  exact (congrFun (after1V5_term X) (ix2 p q)).trans (linTerm_at _ _ _ p q)

/-- and the features scaled by the per-node vector held in `main_v0` in `main_v8`. -/
theorem host1_v8 :
    after1V8 X = fun i => xV0 X (ix1 (i 0)) * Cert.GcnSpec.lin (xArg0 X) (xArg2 X) (xArg3 X) (i 0) (i 1) := by
  funext i
  obtain ⟨p, q, rfl⟩ : ∃ (p : Fin 16384) (q : Fin 256), i = ix2 p q := ⟨i 0, i 1, eq_ix2 i⟩
  refine (congrFun (after1V8_term X) (ix2 p q)).trans ?_
  rw [mulf_apply, perNode_at, linTerm_at]

/-- The last stretch leaves `d i · U i c + (d i · d i) · H i c` in `main_v17`, `d` the vector in `main_v0`, `U` the
    array in `main_v9` and `H` the one in `main_v5`. -/
theorem host2_v17 :
    after2V17 X = fun i => xV0 X (ix1 (i 0)) * xV9 X i + (xV0 X (ix1 (i 0)) * xV0 X (ix1 (i 0))) * xV5 X i := by
  funext i
  obtain ⟨p, q, rfl⟩ : ∃ (p : Fin 16384) (q : Fin 256), i = ix2 p q := ⟨i 0, i 1, eq_ix2 i⟩
  refine (congrFun (after2V17_term X) (ix2 p q)).trans ?_
  rw [addf_apply, mulf_apply, mulf_apply, perNode_at, perNode_at, mulf_apply]

end Cert.KernelIdeal.Hand

end
-- ==== Proof.IdealSide.KernelValue.lean ====
/-
  The kernel's result on the extended reals, read off the contents the program returns with.

  The last stretch of host operations writes `d i · U i c + (d i · d i) · h i c`, where the degree vector `d` is what
  the degree pass left (`rsqrt` of each row sum plus one), `h` the linear layer the first stretch computed, and `U`
  what the aggregation pass left: the adjacency matrix times the features the first stretch scaled by `d`.  Each of
  those buffers is read through the items that leave it alone back to the item that wrote it.
-/
import proofs.«162367_j22325240004644_1_alg».proof.Proof.IdealSide.Kept
import proofs.«162367_j22325240004644_1_alg».proof.Proof.IdealSide.DegValue
import proofs.«162367_j22325240004644_1_alg».proof.Proof.IdealSide.AggValue
import proofs.«162367_j22325240004644_1_alg».proof.Proof.IdealSide.HostStretch
import proofs.«162367_j22325240004644_1_alg».proof.Proof.GcnSpec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The four arguments as launched and the result buffer at the return, as plain functions of an index. -/
abbrev mX (c : Dev nD) : S16384x512.Idx → EReal := m ((c : Thread nD τ).loc main_arg0)
abbrev mA (c : Dev nD) : S16384x16384.Idx → EReal := m ((c : Thread nD τ).loc main_arg1)
abbrev mW (c : Dev nD) : S256x512.Idx → EReal := m ((c : Thread nD τ).loc main_arg2)
abbrev mB (c : Dev nD) : S256.Idx → EReal := m ((c : Thread nD τ).loc main_arg3)
abbrev outArr (c : Dev nD) : S16384x256.Idx → EReal := W4 (F := Ideal) m ρ c (Proc.devRef .tc main_v17)

/-- The program returns with `outK` of its arguments in the result buffer. -/
theorem result_is_outK (c : Dev nD) :
    outArr m ρ c = fun i => Cert.GcnSpec.outK (mX m c) (mA m c) (mW m c) (mB m c) (i 0) (i 1) := by
  -- the degree vector, wherever it is read
  have hd : ∀ i : S16384.Idx, degArr (U0 m ρ) c i = Cert.GcnSpec.dinv (mA m c) (i 0) :=
    fun i => congrFun (deg_final (U0 m ρ) c) i
  have hd1 : xV0 (W1 m ρ c) = degArr (U0 m ρ) c := W1_main_v0 m ρ c
  have hd3 : xV0 (W3 m ρ c) = degArr (U0 m ρ) c := W3_main_v0 m ρ c
  -- the linear layer's operands are the arguments
  have hx : xArg0 (W1 m ρ c) = mX m c := W1_main_arg0 m ρ c
  have hw : xArg2 (W1 m ρ c) = mW m c := W1_main_arg2 m ρ c
  have hb : xArg3 (W1 m ρ c) = mB m c := W1_main_arg3 m ρ c
  have h5 : xV5 (W3 m ρ c) = fun i => Cert.GcnSpec.lin (mX m c) (mW m c) (mB m c) (i 0) (i 1) := by
    have e := host1_v5 (W1 m ρ c)
    rw [hx, hw, hb] at e
    exact (W3_main_v5 m ρ c).trans e
  -- the scaled features and the aggregate
  have h8 : featArr (U2 m ρ) c
      = fun i => Cert.GcnSpec.dinv (mA m c) (i 0) * Cert.GcnSpec.lin (mX m c) (mW m c) (mB m c) (i 0) (i 1) := by
    have e := host1_v8 (W1 m ρ c)
    rw [hx, hw, hb, hd1] at e
    exact e.trans (funext fun i => by rw [hd])
  have hA2 : adjArr (U2 m ρ) c = mA m c := W2_main_arg1 m ρ c
  have h9 : xV9 (W3 m ρ c) = fun i => Cert.GcnSpec.agg (mX m c) (mA m c) (mW m c) (mB m c) (i 0) (i 1) := by
    refine (W3_main_v9 m ρ c).trans ((agg_final (U2 m ρ) c).trans ?_)
    funext i
    rw [hA2, h8]
    rfl
  funext i
  refine (congrFun (host2_v17 (W3 m ρ c)) i).trans ?_
  rw [hd3, h9, h5, hd]
  rfl

end Cert.KernelIdeal.Hand

end
-- ==== Proof.RefValue.lean ====
/-
  The reference's result, read entry by entry on the extended reals.
-/
import proofs.«162367_j22325240004644_1_alg».proof.Proof.Gen.ReferenceIdeal.Read
import proofs.«162367_j22325240004644_1_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## The index words

Both index columns hold the node numbers `0 … 16383` as 32-bit words. Read signed, such a word is the node number
itself, so the test "is the index negative" fails at every node and the wrapped alternative is never chosen. -/

/-- A number below `2^14`, written as a 32-bit word and read back signed, is itself. -/
private theorem toInt_word (e : Nat) (he : e < 16384) : (BitVec.ofNat 32 e).toInt = (e : ℤ) := by
  rw [BitVec.toInt_eq_toNat_cond, BitVec.toNat_ofNat]
  have hm : e % 2 ^ 32 = e := Nat.mod_eq_of_lt (by omega)
  rw [hm, if_pos (by omega)]

/-- The signed test "below zero" fails on the word of a number below `2^14`. -/
private theorem word_not_neg (e : Nat) (he : e < 16384) : IntOp.cmpi .slt (BitVec.ofNat 32 e) 0#32 = 0#1 := by
  have h : (BitVec.ofNat 32 e).slt 0#32 = false := by
    unfold BitVec.slt
    rw [toInt_word e he]
    exact decide_eq_false (by simp)
  show BitVec.ofBool ((BitVec.ofNat 32 e).slt 0#32) = 0#1
  rw [h]
  rfl

/-- The first index column's vector: the node number's word at every node. -/
private theorem v6_word (i : S16384.Idx) : val_main_v6 (F := Ideal) i = BitVec.ofNat 32 (i 0).val := by
  have hi : (i 0).val < 16384 := (i 0).isLt
  rw [val_main_v6_apply, val_main_v3_apply, val_main_v0_apply, val_main_v2_apply, val_main_c_apply,
    word_not_neg _ hi, select_zero]

/-- The second index column's vector: the node number's word at every node. -/
private theorem v11_word (i : S16384.Idx) : val_main_v11 (F := Ideal) i = BitVec.ofNat 32 (i 0).val := by
  have hi : (i 0).val < 16384 := (i 0).isLt
  rw [val_main_v11_apply, val_main_v8_apply, val_main_v1_apply, val_main_v7_apply, val_main_c_1_apply,
    word_not_neg _ hi, select_zero]

/-- Column 0 of the joined index table at row `e` is the word of `e`. -/
private theorem v14_col0 (e : Fin 16384) :
    val_main_v14 (F := Ideal) (ix2 e (0 : Fin 2)) = BitVec.ofNat 32 e.val := by
  unfold val_main_v14
  rw [concatenate_pair_apply_left (t := S16384x2) (s₁ := S16384x1) (s₂ := S16384x1) (1 : Fin 2) _ _ _ (ix2 e (0 : Fin 2)) rfl (ix2 e (0 : Fin 1))
    (fun b => by match b with | ⟨0, _⟩ => rfl | ⟨1, _⟩ => rfl)]
  rw [val_main_v12_apply, v6_word]

/-- Column 1 of the joined index table at row `e` is the word of `e`. -/
private theorem v14_col1 (e : Fin 16384) :
    val_main_v14 (F := Ideal) (ix2 e (1 : Fin 2)) = BitVec.ofNat 32 e.val := by
  unfold val_main_v14
  rw [concatenate_pair_apply_right (t := S16384x2) (s₁ := S16384x1) (s₂ := S16384x1) (1 : Fin 2) _ _ _ (ix2 e (1 : Fin 2)) rfl rfl (ix2 e (0 : Fin 1))
    (fun b hb => by match b with | ⟨0, _⟩ => rfl | ⟨1, _⟩ => exact absurd rfl hb) rfl]
  rw [val_main_v13_apply, v11_word]

/-! ## A point scatter-add read at an element

Each update is one number; its two index words name the row and the column of the element it is added to, read
signed and not clipped. -/

/-- Where an update goes: it reaches element `i` if and only if, axis by axis, the start of its window plus its
    coordinate inside the window equals the coordinate of `i` (a sum that leaves the operand on some axis reaches
    no element at all). -/
private theorem lands_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e2 := congrArg (fun f : s.Idx => (f a).val) (Option.some.inj e)
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-- On the row axis an update's window starts at its first index word, read signed. -/
private theorem pt_start0 {C D n : Nat} (d : ScatterDims ⟨2, ![C, D]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (idx : IVec ⟨2, ![n, 2]⟩ 32) (j : (⟨1, ![n]⟩ : Shape).Idx) :
    d.start j idx 0 = (idx (ix2 (j 0) (0 : Fin 2))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_cons_self) ha

/-- On the column axis an update's window starts at its second index word, read signed. -/
private theorem pt_start1 {C D n : Nat} (d : ScatterDims ⟨2, ![C, D]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (idx : IVec ⟨2, ![n, 2]⟩ 32) (j : (⟨1, ![n]⟩ : Shape).Idx) :
    d.start j idx 1 = (idx (ix2 (j 0) (1 : Fin 2))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_cons_of_mem _ List.mem_cons_self) ha

/-- Both operand axes are inserted ones: the window coordinate is zero on each. -/
private theorem pt_window {C D n : Nat} (d : ScatterDims ⟨2, ![C, D]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (j : (⟨1, ![n]⟩ : Shape).Idx) (a : Fin 2) :
    d.window j a = 0 := by
  obtain ⟨uw, iw, sd, iv, wf⟩ := d
  dsimp only at h1 h2 h3 h4
  subst h1 h2 h3 h4
  unfold ScatterDims.window
  split_ifs with ha
  · exfalso
    have hk : a ∉ (⟨2, ![C, D]⟩ : Shape).kept [0, 1] := by
      fin_cases a <;> simp [Shape.kept, List.mem_filter]
    exact hk ha
  · rfl

/-- The point scatter-add at element `(p, q)`: the operand's element plus the updates whose two index words, read
    signed, are `p` and `q`. -/
private theorem scatterAdd_point_read {C D n : Nat} {φ : FTy} (d : ScatterDims ⟨2, ![C, D]⟩ ⟨2, ![n, 2]⟩ ⟨1, ![n]⟩)
    (h1 : d.updateWindowDims = []) (h2 : d.insertedWindowDims = [0, 1]) (h3 : d.scatterDimsToOperandDims = [0, 1])
    (h4 : d.indexVectorDim = 1)
    (x : (⟨2, ![C, D]⟩ : Shape).Idx → EReal) (idx : IVec ⟨2, ![n, 2]⟩ 32) (upd : (⟨1, ![n]⟩ : Shape).Idx → EReal)
    (p : Fin C) (q : Fin D) :
    Host.scatterAdd (F := Ideal) (φ := φ) d x idx upd (ix2 p q)
      = x (ix2 p q) + ∑ e : Fin n,
          (if (idx (ix2 e (0 : Fin 2))).toInt = (p.val : ℤ) ∧ (idx (ix2 e (1 : Fin 2))).toInt = (q.val : ℤ)
            then upd (ix1 e) else 0) := by
  have key : ∀ j : (⟨1, ![n]⟩ : Shape).Idx,
      d.resultIdx? j idx = some (ix2 p q)
        ↔ ((idx (ix2 (j 0) (0 : Fin 2))).toInt = (p.val : ℤ) ∧ (idx (ix2 (j 0) (1 : Fin 2))).toInt = (q.val : ℤ)) := by
    intro j
    rw [lands_iff]
    constructor
    · intro e
      have e0 : d.start j idx 0 + (d.window j 0 : ℤ) = (p.val : ℤ) := e 0
      have e1 : d.start j idx 1 + (d.window j 1 : ℤ) = (q.val : ℤ) := e 1
      rw [pt_start0 d h1 h2 h3 h4, pt_window d h1 h2 h3 h4] at e0
      rw [pt_start1 d h1 h2 h3 h4, pt_window d h1 h2 h3 h4] at e1
      exact ⟨by simpa using e0, by simpa using e1⟩
    · rintro ⟨e0, e1⟩ a
      match a with
      | ⟨0, _⟩ =>
        show d.start j idx 0 + (d.window j 0 : ℤ) = (p.val : ℤ)
        rw [pt_start0 d h1 h2 h3 h4, pt_window d h1 h2 h3 h4]
        simpa using e0
      | ⟨1, _⟩ =>
        show d.start j idx 1 + (d.window j 1 : ℤ) = (q.val : ℤ)
        rw [pt_start1 d h1 h2 h3 h4, pt_window d h1 h2 h3 h4]
        simpa using e1
  show Ideal.hostScatterAdd d x idx upd (ix2 p q) = _
  unfold Ideal.hostScatterAdd
  congr 1
  rw [Finset.sum_filter]
  refine Fintype.sum_equiv ⟨fun j : (⟨1, ![n]⟩ : Shape).Idx => (j 0 : Fin n), fun e => ix1 e,
    fun j => (eq_ix1 j).symm, fun e => rfl⟩ _ _ (fun j => ?_)
  show (if d.resultIdx? j idx = some (ix2 p q) then upd j else 0)
    = (if (idx (ix2 (j 0) (0 : Fin 2))).toInt = (p.val : ℤ) ∧ (idx (ix2 (j 0) (1 : Fin 2))).toInt = (q.val : ℤ)
        then upd (ix1 (j 0)) else 0)
  by_cases hj : d.resultIdx? j idx = some (ix2 p q)
  · rw [if_pos hj, if_pos ((key j).1 hj)]
    exact congrArg upd (eq_ix1 j)
  · rw [if_neg hj, if_neg (fun h => hj ((key j).2 h))]

/-! ## The stages, read at an element -/

/-- The adjacency after the scatter-add: update `e` lands on `(e, e)`, so exactly one update, the word of one,
    reaches a diagonal element and none reaches any other. -/
private theorem v16_read (x1 : (⟨S16384x16384, .f32⟩ : BufTy).Contents (Elt Ideal)) (p j : Fin 16384) :
    val_main_v16 (F := Ideal) x1 (ix2 p j) = Cert.GcnSpec.adjR x1 p j := by
  unfold val_main_v16 Cert.GcnSpec.adjR
  refine (scatterAdd_point_read (φ := .f32) scatter_S16384x16384_S16384x2_S16384_n_01_01_1 rfl rfl rfl rfl
    x1 (val_main_v14 (F := Ideal)) (val_main_v15 (F := Ideal)) p j).trans ?_
  refine congrArg (fun t => x1 (ix2 p j) + t) ?_
  have hc : ∀ e : Fin 16384,
      ((val_main_v14 (F := Ideal) (ix2 e (0 : Fin 2))).toInt = (p.val : ℤ)
        ∧ (val_main_v14 (F := Ideal) (ix2 e (1 : Fin 2))).toInt = (j.val : ℤ)) ↔ (e = p ∧ p = j) := by
    intro e
    rw [v14_col0, v14_col1, toInt_word e.val e.isLt]
    constructor
    · rintro ⟨a, b⟩; exact ⟨Fin.ext (by omega), Fin.ext (by omega)⟩
    · rintro ⟨rfl, rfl⟩; exact ⟨rfl, rfl⟩
  have hu : ∀ e : Fin 16384, val_main_v15 (F := Ideal) (ix1 e) = Cert.GcnSpec.one := fun e => by
    rw [val_main_v15_apply, val_main_cst_apply, Ideal.ofBits_def]
  rw [Finset.sum_congr rfl (fun e _ => if_congr (hc e) (hu e) rfl)]
  by_cases hpj : p = j
  · subst hpj
    rw [if_pos rfl, Finset.sum_eq_single p (fun b _ hb => if_neg (fun h => hb h.1))
      (fun h => absurd (Finset.mem_univ _) h), if_pos ⟨rfl, rfl⟩]
  · rw [if_neg hpj]
    exact Finset.sum_eq_zero (fun e _ => if_neg (fun h => hpj h.2))

/-- The inverse root of a row sum of the adjacency with self-loops; the sum starts from the zero word. -/
private theorem v18_read (x1 : (⟨S16384x16384, .f32⟩ : BufTy).Contents (Elt Ideal)) (p : Fin 16384) :
    val_main_v18 (F := Ideal) x1 (ix1 p) = Cert.GcnSpec.dinvR x1 p := by
  rw [val_main_v18_apply, Ideal.hostUnary_rsqrt_def, val_main_v17_apply, val_main_cst_3_apply, Ideal.ofBits_def,
    Ideal.ofBits_zero_f32, zero_add]
  unfold Cert.GcnSpec.dinvR
  refine congrArg Ideal.rsqrt (Finset.sum_congr rfl fun k _ => ?_)
  rw [show idx_main_v17 (ix1 p) k = ix2 p k from
    funext fun a => Fin.ext (by match a with | ⟨0, _⟩ => rfl | ⟨1, _⟩ => rfl), v16_read]

/-- The normalised adjacency: the row's inverse root broadcast along the row, the column's along the column. -/
private theorem v24_read (x1 : (⟨S16384x16384, .f32⟩ : BufTy).Contents (Elt Ideal)) (p k : Fin 16384) :
    val_main_v24 (F := Ideal) x1 (ix2 p k)
      = (Cert.GcnSpec.adjR x1 p k * Cert.GcnSpec.dinvR x1 p) * Cert.GcnSpec.dinvR x1 k := by
  rw [val_main_v24_apply, val_main_v21_apply, Ideal.mulf_def, Ideal.mulf_def, v16_read,
    val_main_v20_apply, val_main_v19_apply, val_main_v23_apply, val_main_v22_apply]
  rw [show idx_main_v19 (idx_main_v20 (ix2 p k)) = ix1 p from
      funext fun a => Fin.ext (by match a with | ⟨0, _⟩ => rfl),
    show idx_main_v22 (idx_main_v23 (ix2 p k)) = ix1 k from
      funext fun a => Fin.ext (by match a with | ⟨0, _⟩ => rfl),
    v18_read, v18_read]

/-- The linear layer: the product with the transposed weights, plus the bias broadcast over the nodes. -/
private theorem v29_read (x0 : (⟨S16384x512, .f32⟩ : BufTy).Contents (Elt Ideal))
    (x2 : (⟨S256x512, .f32⟩ : BufTy).Contents (Elt Ideal)) (x3 : (⟨S256, .f32⟩ : BufTy).Contents (Elt Ideal))
    (k : Fin 16384) (q : Fin 256) :
    val_main_v29 (F := Ideal) x0 x2 x3 (ix2 k q) = Cert.GcnSpec.lin x0 x2 x3 k q := by
  rw [val_main_v29_apply, Ideal.addf_def, val_main_v26_apply, val_main_v28_apply, val_main_v27_apply]
  unfold Cert.GcnSpec.lin
  refine congrArg₂ (· + ·) (Finset.sum_congr rfl fun m _ => ?_)
    (congrArg x3 (funext fun a => Fin.ext (by match a with | ⟨0, _⟩ => rfl)))
  rw [val_main_v25_apply,
    show lidx_main_v26 (ix2 k q) m = ix2 k m from
      funext fun a => Fin.ext (by match a with | ⟨0, _⟩ => rfl | ⟨1, _⟩ => rfl),
    show idx_main_v25 (ridx_main_v26 (ix2 k q) m) = ix2 q m from
      funext fun a => Fin.ext (by match a with | ⟨0, _⟩ => rfl | ⟨1, _⟩ => rfl)]

/-- Entry `(i, c)` of the reference's result is `∑ⱼ (((A i j + [i = j]) · d' i) · d' j) · h j c`: the scatter-add puts
    a one on the diagonal, the row sums' inverse roots scale rows and columns, and the last product sums over the
    nodes. -/
theorem ref_is_outR (x0 : (⟨S16384x512, .f32⟩ : BufTy).Contents (Elt Ideal)) (x1 : (⟨S16384x16384, .f32⟩ : BufTy).Contents (Elt Ideal))
    (x2 : (⟨S256x512, .f32⟩ : BufTy).Contents (Elt Ideal)) (x3 : (⟨S256, .f32⟩ : BufTy).Contents (Elt Ideal)) (i : S16384x256.Idx) :
    val_main_v30 (F := Ideal) x0 x1 x2 x3 i = Cert.GcnSpec.outR x0 x1 x2 x3 (i 0) (i 1) := by
  obtain ⟨p, q, rfl⟩ : ∃ (p : Fin 16384) (q : Fin 256), i = ix2 p q := ⟨i 0, i 1, eq_ix2 i⟩
  show _ = Cert.GcnSpec.outR x0 x1 x2 x3 p q
  rw [val_main_v30_apply]
  unfold Cert.GcnSpec.outR
  refine Finset.sum_congr rfl fun k _ => ?_
  rw [show lidx_main_v30 (ix2 p q) k = ix2 p k from
      funext fun a => Fin.ext (by match a with | ⟨0, _⟩ => rfl | ⟨1, _⟩ => rfl),
    show ridx_main_v30 (ix2 p q) k = ix2 k q from
      funext fun a => Fin.ext (by match a with | ⟨0, _⟩ => rfl | ⟨1, _⟩ => rfl),
    v24_read, v29_read]

end Cert.ReferenceIdeal.RefValue

end
-- ==== Proof.PreDecode.lean ====
/-
  The precondition read on the extended reals: every entry of every argument is a real number, and every node's
  degree (its row sum plus one) is positive.
-/
import proofs.«162367_j22325240004644_1_alg».proof.Pre_finite_inputs
import proofs.«162367_j22325240004644_1_alg».proof.Proof.GcnSpec
import Idealize.ShloMosaic.Lib.ReduceAll
import Idealize.ShloMosaic.Lib.StableHlo.Predicate
import Idealize.ShloMosaic.Lib.ValueIdx
import Idealize.ShloMosaic.PureOps.Ideal.Laws

set_option maxRecDepth 16384

noncomputable section

open scoped BigOperators

namespace Cert.PreDecode

open Idealize.ShloMosaic Idealize.ShloMosaic.ValueIdx
open Cert.Pre_finite_inputs

/-- The f32 word with all exponent bits set and no fraction bit is the top of the extended reals. -/
private theorem inf_word : Ideal.ofBits .f32 0x7F800000#32 = (⊤ : EReal) := by simp [Ideal.ofBits, Ideal.ieee]

/-- An extended real whose absolute value, max x (-x), is below the top is a real number. -/
private theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One entry's test, at any shape: where the comparison of |a| with the broadcast infinity word reads 1 at an index, the
    entry there is a real number. -/
private theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  exact real_of_abs_lt_top (a i) h'

/-- In a matrix of R rows and C columns, the index of row r with the column coordinate k put back is (r, k). -/
private theorem lift_at_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c
  apply Fin.ext
  match c with
  | ⟨0, _⟩ => rfl
  | ⟨1, _⟩ => rfl

/-- The host's sum along the rows of the square matrix, from the zero word, read at row i: the sum of that row. -/
private theorem rowSum_at (a1 : FVec Ideal S16384x16384 .f32) (hr : S16384x16384.ReducesTo [1] S16384) (hu : 0 < S_.numel)
    (i : Fin 16384) :
    Host.reduceAdd a1 (constant (F := Ideal) S_ .f32 0x00000000#32) hr hu (ix1 i) = ∑ j : Fin 16384, a1 (ix2 i j) := by
  have hR : S16384x16384.Reduces [1] S16384 := ⟨hr.1, Nat.one_pos, hr.2⟩
  have e : Host.reduceAdd a1 (constant (F := Ideal) S_ .f32 0x00000000#32) hr hu (ix1 i)
      = Ideal.hostReduceAdd hr a1 (Ideal.ofBits .f32 0x00000000#32) (ix1 i) := rfl
  rw [e, Ideal.hostReduceAdd_single hr hR, Ideal.ofBits_zero_f32, zero_add]
  exact Finset.sum_congr rfl fun k _ => congrArg a1 (lift_at_row hR i k)

/-- One row's test: where the comparison "row sum from the zero word, plus the word of one, is above the zero word"
    reads 1 at row i, the degree of node i is positive. -/
private theorem deg_pos_of_test (a1 : FVec Ideal S16384x16384 .f32)
    (hr : S16384x16384.ReducesTo [1] S16384) (hu : 0 < S_.numel)
    (hb : S_.BroadcastsInDim S16384 (![] : Fin 0 → Fin S16384.rank)) (i : Fin 16384)
    (h : cmpf .ogt
        (addf (Host.reduceAdd a1 (constant (F := Ideal) S_ .f32 0x00000000#32) hr hu)
          (broadcastInDim S16384 ![] hb (constant (F := Ideal) S_ .f32 0x3F800000#32)))
        (broadcastInDim S16384 ![] hb (constant (F := Ideal) S_ .f32 0x00000000#32)) (ix1 i) = 1#1) :
    0 < Cert.GcnSpec.deg a1 i := by
  rw [cmpf_apply, addf_apply, rowSum_at, StableHlo.Predicate.bcast_scalar hb hu, StableHlo.Predicate.bcast_scalar hb hu,
    constant_apply, constant_apply, Ideal.cmpf_def, Ideal.ofBits_zero_f32] at h
  unfold Ideal.cmp at h
  exact of_decide_eq_true ((StableHlo.Predicate.ofBool_eq_one_iff _).1 h)

/-- Where the printed precondition holds, the four arrays hold real numbers only and every degree is positive. -/
theorem of_pre [Cert.Pre_finite_inputs.Facts] (a0 : FVec Ideal S16384x512 .f32) (a1 : FVec Ideal S16384x16384 .f32)
    (a2 : FVec Ideal S256x512 .f32) (a3 : FVec Ideal S256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i : Fin 16384, 0 < Cert.GcnSpec.deg a1 i) := by
  -- the scalar shape has one index, so each "all" test speaks of every entry of its operand
  haveI : Subsingleton S_.Idx := ⟨fun a b => funext fun d => d.elim0⟩
  -- the printed function at its one index: a conjunction of five tests
  have h0 := congrFun h ValueIdx.ix0
  dsimp only [Cert.Pre_finite_inputs.fn, Cert.Pre_finite_inputs.fn_part1] at h0
  obtain ⟨h18, h24⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_, fun i => ?_, fun i => ?_⟩
  · exact real_of_test a0 _ i (Host.reduce_andi_all _ _ _ _ ix0 h3 i)
  · exact real_of_test a1 _ i (Host.reduce_andi_all _ _ _ _ ix0 h7 i)
  · exact real_of_test a2 _ i (Host.reduce_andi_all _ _ _ _ ix0 h12 i)
  · exact real_of_test a3 _ i (Host.reduce_andi_all _ _ _ _ ix0 h17 i)
  · exact deg_pos_of_test a1 _ _ _ i (Host.reduce_andi_all _ _ _ _ ix0 h24 (ix1 i))

end Cert.PreDecode

end
-- ==== Proof.Claims.lean ====
/-
  The five claims, assembled.

  Both printed kernels (the word-level one and its idealization: the same text, no rewrite) run to the end with
  their arguments unchanged by the whole-program run of their two regions and two host stretches; the reference, a
  host program, by its operations run one after the other.  On the extended reals the kernel returns
  `d i · (∑ⱼ A i j · (d j · h j c)) + (d i · d i) · h i c` and the reference
  `∑ⱼ (((A i j + [i = j]) · d i) · d j) · h j c`; where the precondition holds every entry is real and every degree
  positive, so every `d i` is a positive real and the two are one number: the self-loop term distributes out of
  the sum.
-/
import proofs.«162367_j22325240004644_1_alg».proof.Defs
import proofs.«162367_j22325240004644_1_alg».proof.Proof.Gen.Kernel
import proofs.«162367_j22325240004644_1_alg».proof.Proof.Gen.KernelIdeal
import proofs.«162367_j22325240004644_1_alg».proof.Proof.Gen.ReferenceIdeal
import proofs.«162367_j22325240004644_1_alg».proof.Proof.Gen.Pre_finite_inputs
import proofs.«162367_j22325240004644_1_alg».proof.Proof.Gen.ReferenceIdeal.Run
import proofs.«162367_j22325240004644_1_alg».proof.Proof.Gen.ReferenceIdeal.Read
import proofs.«162367_j22325240004644_1_alg».proof.Proof.BitsSide.Kept
import proofs.«162367_j22325240004644_1_alg».proof.Proof.IdealSide.Kept
import proofs.«162367_j22325240004644_1_alg».proof.Proof.IdealSide.KernelValue
import proofs.«162367_j22325240004644_1_alg».proof.Proof.RefValue
import proofs.«162367_j22325240004644_1_alg».proof.Proof.PreDecode
import proofs.«162367_j22325240004644_1_alg».proof.Proof.GcnSpec

set_option maxRecDepth 16384

noncomputable section

namespace Cert.Proof.Claims

open Idealize.ShloMosaic Idealize.ShloMosaic.TcCoe Idealize.SL.Sem

/-- The word-level kernel runs to the end and leaves its arguments alone. -/
theorem frame_k : Cert.frame_Kernel := fun m ρ _ => Cert.Kernel.Hand.frame_all (F := Bits) m ρ

/-- So does its idealization. -/
theorem frame_ki : Cert.frame_KernelIdeal := fun m ρ _ => Cert.KernelIdeal.Hand.frame_all (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, where the precondition holds, the two programs return the same array. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v17), ?_, ?_⟩
  · exact (θ_run Cert.KernelIdeal.defs _ _).mono (fun _ h c =>
      ⟨h c _ (Cert.KernelIdeal.Hand.mem_uc Cert.KernelIdeal.main_v17 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    obtain ⟨h0, h1, h2, h3, hpos⟩ := Cert.PreDecode.of_pre _ _ _ _ (hpre c)
    funext i
    refine (Cert.ReferenceIdeal.RefValue.ref_is_outR _ _ _ _ i).trans ?_
    refine Eq.trans ?_ (congrFun (Cert.KernelIdeal.Hand.result_is_outK m ρ c) i).symm
    exact (Cert.GcnSpec.outK_eq_outR _ _ _ _ h0 h1 h2 h3 hpos (i 0) (i 1)).symm

end Cert.Proof.Claims

end
-- ==== Proof.lean ====
/-
  A graph-convolution layer, `out = D^(-1/2) (A + I) D^(-1/2) (x wᵀ + b)` with `D` the diagonal of the row sums of
  `A + I`, computed two ways.

  The kernel never forms `A + I`.  A first kernel region takes `d i = rsqrt (∑ⱼ A i j + 1)` row block by row block;
  host operations form `h = x wᵀ + b` and the scaled features `d ⊙ h`; a second region multiplies `A` by them, one
  2048 × 1024 block at a time, adding the sixteen partial products of a row block in an accumulator that it copies
  out after the last; host operations return `d i · (A (d ⊙ h)) i c + d i² · h i c`.  The reference adds one to the
  diagonal, scales rows and columns by the inverse root degrees and multiplies by `h`.

  On real entries with positive degrees the two are equal (Proof/GcnSpec.lean).  Positivity is assumed because the
  reference's own `rsqrt` is outside its domain otherwise: at a zero degree `d i = ⊤`, and the kernel's
  `⊤ · u + ⊤ · v` and the reference's `∑ⱼ (a_ij · ⊤) · …` meet `⊤ + ⊥` differently.

  Proof/IdealSide holds the kernel's run and values (Proof/BitsSide the same run for the word-level program),
  Proof/RefValue.lean the reference read entry by entry, Proof/PreDecode.lean the precondition read on the extended
  reals, Proof/Claims.lean the five claims.
-/
import proofs.«162367_j22325240004644_1_alg».proof.Defs
import proofs.«162367_j22325240004644_1_alg».proof.Proof.Gen.Kernel
import proofs.«162367_j22325240004644_1_alg».proof.Proof.Gen.Kernel.Skeleton
import proofs.«162367_j22325240004644_1_alg».proof.Proof.Gen.Kernel.Launch
import proofs.«162367_j22325240004644_1_alg».proof.Proof.Gen.Kernel.Regions
import proofs.«162367_j22325240004644_1_alg».proof.Proof.Gen.Kernel.Points
import proofs.«162367_j22325240004644_1_alg».proof.Proof.Gen.KernelIdeal
import proofs.«162367_j22325240004644_1_alg».proof.Proof.Gen.KernelIdeal.Skeleton
import proofs.«162367_j22325240004644_1_alg».proof.Proof.Gen.KernelIdeal.Launch
import proofs.«162367_j22325240004644_1_alg».proof.Proof.Gen.KernelIdeal.Regions
import proofs.«162367_j22325240004644_1_alg».proof.Proof.Gen.KernelIdeal.Points
import proofs.«162367_j22325240004644_1_alg».proof.Proof.Gen.ReferenceIdeal
import proofs.«162367_j22325240004644_1_alg».proof.Proof.Gen.ReferenceIdeal.Run
import proofs.«162367_j22325240004644_1_alg».proof.Proof.Gen.ReferenceIdeal.Read
import proofs.«162367_j22325240004644_1_alg».proof.Proof.Gen.Pre_finite_inputs
import proofs.«162367_j22325240004644_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
